-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1000 : Shape := ⟨2, ![65536, 1000]⟩
abbrev S65536 : Shape := ⟨1, ![65536]⟩
abbrev S_ : Shape := ⟨0, ![]⟩

class Facts : Prop where
  bcast_S_S65536x1000 : S_.BroadcastsInDim S65536x1000 (![] : Fin 0 → Fin S65536x1000.rank)
  reducesTo_S65536x1000_S_d0_1 : S65536x1000.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x1000 .f32) (main_arg1 : IVec S65536 32) : IVec S_ 1 :=
  let main_v0 : FVec F S65536x1000 .f32 := Host.absf main_arg0
  let main_cst : FVec F S_ .f32 := constant S_ .f32 0x7F800000#32
  let main_v1 : FVec F S65536x1000 .f32 := broadcastInDim S65536x1000 ![] bcast_S_S65536x1000 main_cst
  let main_v2 : IVec S65536x1000 1 := cmpf .olt main_v0 main_v1
  let main_c : IVec S_ 1 := constantI S_ 1 1#1
  let main_v3 : IVec S_ 1 := (fun x v => Host.reduce IntOp.andi x v reducesTo_S65536x1000_S_d0_1 h_S_) main_v2 main_c
  let main_c_0 : IVec S_ 32 := constantI S_ 32 0#32
  let main_v4 : IVec S65536 32 := broadcastInDim S65536 ![] bcast_S_S65536 main_c_0
  let main_v5 : IVec S65536 1 := cmpi .sge main_arg1 main_v4
  let main_c_1 : IVec S_ 1 := constantI S_ 1 1#1
  let main_v6 : IVec S_ 1 := (fun x v => Host.reduce IntOp.andi x v reducesTo_S65536_S_d0 h_S_) main_v5 main_c_1
  let main_v7 : IVec S_ 1 := andi main_v3 main_v6
  let main_c_2 : IVec S_ 32 := constantI S_ 32 1000#32
  let main_v8 : IVec S65536 32 := broadcastInDim S65536 ![] bcast_S_S65536 main_c_2
  let main_v9 : IVec S65536 1 := cmpi .slt main_arg1 main_v8
  let main_c_3 : IVec S_ 1 := constantI S_ 1 1#1
  let main_v10 : IVec S_ 1 := (fun x v => Host.reduce IntOp.andi x v reducesTo_S65536_S_d0 h_S_) main_v9 main_c_3
  let main_v11 : IVec S_ 1 := andi main_v7 main_v10
  main_v11
-- ==== Kernel.lean ====
abbrev S65536x1000 : Shape := ⟨2, ![65536, 1000]⟩
abbrev S65536 : Shape := ⟨1, ![65536]⟩
abbrev S65536x1 : Shape := ⟨2, ![65536, 1]⟩
abbrev S64x1x2 : Shape := ⟨3, ![64, 1, 2]⟩
abbrev S1024x1000 : Shape := ⟨2, ![1024, 1000]⟩
abbrev S1024x1 : Shape := ⟨2, ![1024, 1]⟩
abbrev S1x1x2 : Shape := ⟨3, ![1, 1, 2]⟩
abbrev S1024 : Shape := ⟨1, ![1024]⟩
abbrev S1 : Shape := ⟨1, ![1]⟩
abbrev S1x1 : Shape := ⟨2, ![1, 1]⟩
abbrev S1x2 : Shape := ⟨2, ![1, 2]⟩
abbrev S64x2 : Shape := ⟨2, ![64, 2]⟩
abbrev S_ : Shape := ⟨0, ![]⟩
abbrev S2 : Shape := ⟨1, ![2]⟩

abbrev nBuf : Space → Nat
  | .hbm => 20
  | .vmem => 6
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S65536x1, .i32⟩
  | .hbm, ⟨3, _⟩ => ⟨S64x1x2, .f32⟩
  | .hbm, ⟨4, _⟩ => ⟨S64x2, .f32⟩
  | .hbm, ⟨5, _⟩ => ⟨S_, .f32⟩
  | .hbm, ⟨6, _⟩ => ⟨S2, .f32⟩
  | .hbm, ⟨7, _⟩ => ⟨S1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024x1, .i32⟩
  | .local _ .vmem, ⟨3, _⟩ => ⟨S1024x1, .i32⟩
  | .local _ .vmem, ⟨4, _⟩ => ⟨S1x1x2, .f32⟩
  | .local _ .vmem, ⟨5, _⟩ => ⟨S1x1x2, .f32⟩
  | _, _ => ⟨S65536x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S65536_S65536x1 : S65536.ShapeCasts S65536x1
  inb_S1024x1000_S1024x1000_0_0 : ∀ a, (![0, 0] : Fin 2 → Nat) a + S1024x1000.size a ≤ S1024x1000.size a
  h_S1024x1000 : 0 < S1024x1000.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1000_S1024 : S1024x1000.Reduces [1] S1024
  shapeCasts_S1024_S1024x1 : S1024.ShapeCasts S1024x1
  broadcasts_S1024x1_S1024x1000 : S1024x1.Broadcasts S1024x1000
  iota_S1024x1000_d1_w32 : S1024x1000.Iotas .tc 32 [1]
  reduces_S1024x1_S1 : S1024x1.Reduces [0] S1
  shapeCasts_S1_S1x1 : S1.ShapeCasts S1x1
  concatenates_S1x1_S1x1_S1x2_d1 : Shape.Concatenates [S1x1, S1x1] S1x2 1
  shapeCasts_S1x2_S1x1x2 : S1x2.ShapeCasts S1x1x2
  inb_S1x1x2_S1x1x2_0_0_0 : ∀ a, (![0, 0, 0] : Fin 3 → Nat) a + S1x1x2.size a ≤ S1x1x2.size a
  h_S1x1x2 : 0 < S1x1x2.numel
  shapeCasts_S64x1x2_S64x2 : S64x1x2.ShapeCasts S64x2
  reducesTo_S64x2_S2_d0 : S64x2.ReducesTo [0] S2
  h_S_ : 0 < S_.numel
  slices_S2_S1_0 : S2.Slices ![0] S1
  shapeCasts_S1_S_ : S1.ShapeCasts S_
  slices_S2_S1_1 : S2.Slices ![1] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S65536x1000.size a
  hwx0_0 : ∀ i : grid0.Coords, EltTy.bits .f32 = 32 ∨ (Rect.block (s := S65536x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S65536x1.size a
  hwx0_1 : ∀ i : grid0.Coords, EltTy.bits .i32 = 32 ∨ (Rect.block (s := S65536x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2.size a ≤ S64x1x2.size a
  hwx0_2 : ∀ i : grid0.Coords, EltTy.bits .f32 = 32 ∨ (Rect.block (s := S64x1x2) S1x1x2.size (cc0_transform_2 i) (hinb0_2 i)).WholeWords (EltTy.packing .f32)

variable [Facts₀]

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1000 : Shape := ⟨2, ![65536, 1000]⟩
abbrev S65536 : Shape := ⟨1, ![65536]⟩
abbrev S_ : Shape := ⟨0, ![]⟩
abbrev S65536x1 : Shape := ⟨2, ![65536, 1]⟩
abbrev S65536x2 : Shape := ⟨2, ![65536, 2]⟩

abbrev nBuf : Space → Nat
  | .hbm => 97
  | .vmem => 0
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S_, .f32⟩
  | .hbm, ⟨3, _⟩ => ⟨S65536, .f32⟩
  | .hbm, ⟨4, _⟩ => ⟨S_, .f32⟩
  | .hbm, ⟨5, _⟩ => ⟨S65536, .f32⟩
  | .hbm, ⟨6, _⟩ => ⟨S65536, .f32⟩
  | .hbm, ⟨7, _⟩ => ⟨S65536x1, .f32⟩
  | .hbm, ⟨8, _⟩ => ⟨S65536x1000, .f32⟩
  | .hbm, ⟨9, _⟩ => ⟨S65536x1000, .f32⟩
  | .hbm, ⟨10, _⟩ => ⟨S65536x1000, .f32⟩
  | .hbm, ⟨11, _⟩ => ⟨S_, .f32⟩
  | .hbm, ⟨12, _⟩ => ⟨S65536, .f32⟩
  | .hbm, ⟨13, _⟩ => ⟨S65536x1, .f32⟩
  | .hbm, ⟨14, _⟩ => ⟨S65536x1, .f32⟩
  | .hbm, ⟨15, _⟩ => ⟨S65536x1000, .f32⟩
  | .hbm, ⟨16, _⟩ => ⟨S65536x1000, .f32⟩
  | .hbm, ⟨17, _⟩ => ⟨S65536, .i32⟩
  | .hbm, ⟨18, _⟩ => ⟨S_, .i32⟩
  | .hbm, ⟨19, _⟩ => ⟨S65536, .i32⟩
  | .hbm, ⟨20, _⟩ => ⟨S65536, .i1⟩
  | .hbm, ⟨21, _⟩ => ⟨S_, .i32⟩
  | .hbm, ⟨22, _⟩ => ⟨S65536, .i32⟩
  | .hbm, ⟨23, _⟩ => ⟨S65536, .i32⟩
  | .hbm, ⟨24, _⟩ => ⟨S65536, .i32⟩
  | .hbm, ⟨25, _⟩ => ⟨S_, .i32⟩
  | .hbm, ⟨26, _⟩ => ⟨S65536, .i32⟩
  | .hbm, ⟨27, _⟩ => ⟨S65536, .i1⟩
  | .hbm, ⟨28, _⟩ => ⟨S_, .i32⟩
  | .hbm, ⟨29, _⟩ => ⟨S65536, .i32⟩
  | .hbm, ⟨30, _⟩ => ⟨S65536, .i32⟩
  | .hbm, ⟨31, _⟩ => ⟨S65536, .i32⟩
  | .hbm, ⟨32, _⟩ => ⟨S65536x1, .i32⟩
  | .hbm, ⟨33, _⟩ => ⟨S65536x1, .i32⟩
  | .hbm, ⟨34, _⟩ => ⟨S65536x2, .i32⟩
  | .hbm, ⟨35, _⟩ => ⟨S65536, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S65536, .f32⟩
  | .hbm, ⟨43, _⟩ => ⟨S_, .f32⟩
  | .hbm, ⟨44, _⟩ => ⟨S65536, .f32⟩
  | .hbm, ⟨45, _⟩ => ⟨S65536, .f32⟩
  | .hbm, ⟨46, _⟩ => ⟨S65536x1, .f32⟩
  | .hbm, ⟨47, _⟩ => ⟨S65536x1000, .f32⟩
  | .hbm, ⟨48, _⟩ => ⟨S65536x1000, .f32⟩
  | .hbm, ⟨49, _⟩ => ⟨S65536x1000, .f32⟩
  | .hbm, ⟨50, _⟩ => ⟨S_, .f32⟩
  | .hbm, ⟨51, _⟩ => ⟨S65536, .f32⟩
  | .hbm, ⟨52, _⟩ => ⟨S65536x1, .f32⟩
  | .hbm, ⟨53, _⟩ => ⟨S65536x1000, .f32⟩
  | .hbm, ⟨54, _⟩ => ⟨S65536x1000, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S65536x1000, .f32⟩
  | .hbm, ⟨59, _⟩ => ⟨S65536x1000, .f32⟩
  | .hbm, ⟨60, _⟩ => ⟨S_, .f32⟩
  | .hbm, ⟨61, _⟩ => ⟨S65536x1000, .f32⟩
  | .hbm, ⟨62, _⟩ => ⟨S65536x1000, .f32⟩
  | .hbm, ⟨63, _⟩ => ⟨S_, .f32⟩
  | .hbm, ⟨64, _⟩ => ⟨S65536, .f32⟩
  | .hbm, ⟨65, _⟩ => ⟨S_, .i32⟩
  | .hbm, ⟨66, _⟩ => ⟨S65536, .i32⟩
  | .hbm, ⟨67, _⟩ => ⟨S65536, .i1⟩
  | .hbm, ⟨68, _⟩ => ⟨S_, .i32⟩
  | .hbm, ⟨69, _⟩ => ⟨S65536, .i32⟩
  | .hbm, ⟨70, _⟩ => ⟨S65536, .i32⟩
  | .hbm, ⟨71, _⟩ => ⟨S65536, .i32⟩
  | .hbm, ⟨72, _⟩ => ⟨S_, .i32⟩
  | .hbm, ⟨73, _⟩ => ⟨S65536, .i32⟩
  | .hbm, ⟨74, _⟩ => ⟨S65536, .i1⟩
  | .hbm, ⟨75, _⟩ => ⟨S_, .i32⟩
  | .hbm, ⟨76, _⟩ => ⟨S65536, .i32⟩
  | .hbm, ⟨77, _⟩ => ⟨S65536, .i32⟩
  | .hbm, ⟨78, _⟩ => ⟨S65536, .i32⟩
  | .hbm, ⟨79, _⟩ => ⟨S65536x1, .i32⟩
  | .hbm, ⟨80, _⟩ => ⟨S65536x1, .i32⟩
  | .hbm, ⟨81, _⟩ => ⟨S65536x2, .i32⟩
  | .hbm, ⟨82, _⟩ => ⟨S65536, .f32⟩
  | .hbm, ⟨83, _⟩ => ⟨S65536, .f32⟩
  | .hbm, ⟨84, _⟩ => ⟨S_, .f32⟩
  | .hbm, ⟨85, _⟩ => ⟨S65536, .f32⟩
  | .hbm, ⟨86, _⟩ => ⟨S65536, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S65536x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_cst_5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_cst_8 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v30 : Ref sig .tc := ⟨.hbm, 62, rfl⟩
abbrev main_cst_9 : Ref sig .tc := ⟨.hbm, 63, rfl⟩
abbrev main_v31 : Ref sig .tc := ⟨.hbm, 64, rfl⟩
abbrev main_c_10 : Ref sig .tc := ⟨.hbm, 65, rfl⟩
abbrev main_v32 : Ref sig .tc := ⟨.hbm, 66, rfl⟩
abbrev main_v33 : Ref sig .tc := ⟨.hbm, 67, rfl⟩
abbrev main_c_11 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_c_12 : Ref sig .tc := ⟨.hbm, 72, rfl⟩
abbrev main_v37 : Ref sig .tc := ⟨.hbm, 73, rfl⟩
abbrev main_v38 : Ref sig .tc := ⟨.hbm, 74, rfl⟩
abbrev main_c_13 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_14 : Ref sig .tc := ⟨.hbm, 84, rfl⟩
abbrev main_v47 : Ref sig .tc := ⟨.hbm, 85, rfl⟩
abbrev main_v48 : Ref sig .tc := ⟨.hbm, 86, rfl⟩
abbrev main_cst_15 : Ref sig .tc := ⟨.hbm, 87, rfl⟩
abbrev main_v49 : Ref sig .tc := ⟨.hbm, 88, rfl⟩
abbrev main_cst_16 : Ref sig .tc := ⟨.hbm, 89, rfl⟩
abbrev main_v50 : Ref sig .tc := ⟨.hbm, 90, rfl⟩
abbrev main_v51 : Ref sig .tc := ⟨.hbm, 91, rfl⟩
abbrev main_cst_17 : Ref sig .tc := ⟨.hbm, 92, rfl⟩
abbrev main_v52 : Ref sig .tc := ⟨.hbm, 93, rfl⟩
abbrev main_cst_18 : Ref sig .tc := ⟨.hbm, 94, rfl⟩
abbrev main_v53 : Ref sig .tc := ⟨.hbm, 95, rfl⟩
abbrev main_v54 : Ref sig .tc := ⟨.hbm, 96, rfl⟩

abbrev nD : Nat := 1
abbrev τ : Topo := Topo.v7x

variable {F : FTy → Type} [FloatOps F]

class Facts₀ : Prop where
  reducesTo_S65536x1000_S65536_d1 : S65536x1000.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x1000_0_1 : S65536x1.BroadcastsInDim S65536x1000 (![0, 1] : Fin 2 → Fin S65536x1000.rank)
  concatenates_S65536x1_S65536x1_S65536x2_d1 : Shape.Concatenates [S65536x1, S65536x1] S65536x2 1
  reducesTo_S65536_S_d0 : S65536.ReducesTo [0] S_
  bcast_S_S65536x1000 : S_.BroadcastsInDim S65536x1000 (![] : Fin 0 → Fin S65536x1000.rank)
  gather_S65536x1000_S65536x2_S65536_n_01_n_n_01_1_11_wf : GatherDims.WF S65536x1000 S65536x2 S65536 [] [0, 1] [] [0, 1] [] 1 ![1, 1]

variable [Facts₀]

def gather_S65536x1000_S65536x2_S65536_n_01_n_n_01_1_11 : GatherDims S65536x1000 S65536x2 S65536 where
  offsetDims := []
  collapsedSliceDims := [0, 1]
  operandBatchingDims := []
  startIndicesBatchingDims := []
  startIndexMap := [0, 1]
  indexVectorDim := 1
  sliceSizes := ![1, 1]
  wf := gather_S65536x1000_S65536x2_S65536_n_01_n_n_01_1_11_wf

class Facts : Prop extends Facts₀ where

variable [Facts]
-- ==== Proof.TRefCasts.lean ====
/-
  Reading back what was written, for the reference's inlined functions. A value of a function the reference calls is
  written into a buffer through the buffer's type and read through it again; the two transports are along one equation
  of types and cancel, whatever the buffer (`ofBuf_toBuf`). At the six places where an inlined function meets the
  main program (its argument buffers, read once; its result buffers, written once) the buffer's type IS the value's
  type, so the single transport is the identity.
-/
import proofs.«427901_j11751030522421_2_alg».proof.ReferenceIdeal
import Idealize.ShloMosaic.Lib.StableHlo

noncomputable section

namespace Cert.ReferenceIdeal.Casts

open Cert.ReferenceIdeal Idealize.ShloMosaic Idealize.ShloMosaic.StableHlo

/-- Writing a value into a typed reference's buffer and reading it back is the identity, whatever the buffer. -/
theorem ofBuf_toBuf {sg : RefSig} {Vl : EltTy → Type} {T : BufTy} (x : TRef sg T) (v : T.Contents Vl) :
    x.ofBuf (x.toBuf v) = v := by
  obtain ⟨r, h, hd, hs⟩ := x
  subst h
  rfl

section Boundary
variable {Vl : EltTy → Type}
theorem ofBuf_arg0 (p1 p2 p3) (v : (main_arg0 : Ref sig .tc).ty.Contents Vl) :
    (TRef.of (T := ⟨S65536x1000, .f32⟩) main_arg0 p1 p2 p3).ofBuf v = v := rfl
theorem ofBuf_v29 (p1 p2 p3) (v : (main_v29 : Ref sig .tc).ty.Contents Vl) :
    (TRef.of (T := ⟨S65536x1000, .f32⟩) main_v29 p1 p2 p3).ofBuf v = v := rfl
theorem ofBuf_cst_7 (p1 p2 p3) (v : (main_cst_7 : Ref sig .tc).ty.Contents Vl) :
    (TRef.of (T := ⟨S_, .f32⟩) main_cst_7 p1 p2 p3).ofBuf v = v := rfl
theorem ofBuf_cst_8 (p1 p2 p3) (v : (main_cst_8 : Ref sig .tc).ty.Contents Vl) :
    (TRef.of (T := ⟨S_, .f32⟩) main_cst_8 p1 p2 p3).ofBuf v = v := rfl
theorem toBuf_v0 (p1 p2 p3) (v : (⟨S65536x1000, .f32⟩ : BufTy).Contents Vl) :
    (TRef.of (T := ⟨S65536x1000, .f32⟩) main_v0 p1 p2 p3).toBuf v = v := rfl
theorem toBuf_v30 (p1 p2 p3) (v : (⟨S65536x1000, .f32⟩ : BufTy).Contents Vl) :
    (TRef.of (T := ⟨S65536x1000, .f32⟩) main_v30 p1 p2 p3).toBuf v = v := rfl
end Boundary

end Cert.ReferenceIdeal.Casts

end
-- ==== Proof.Consts.lean ====
/-
  The f32 words the two programs spell, as the extended reals they denote. Stated once, here, for the whole
  certificate: no other module opens the reading of a word.
    0xFF800000  -inf          0x7F800000  +inf        0x00000000  0           0x3F800000  1
    0x37800000  2^-16         0x47800000  65536
    0x41135D8E  v = 9657742 / 2^20 (the f32 nearest to -log 1e-4)      0xC1135D8E  -v
    0x33D6BF95  14073749 / 2^47 (the f32 nearest to 1e-7)
-/
import Idealize.ShloMosaic.PureOps.Ideal

noncomputable section

namespace Cert.Consts

open Idealize.ShloMosaic

theorem ofBits_negInf : Ideal.ofBits .f32 0xFF800000#32 = ⊥ := by
  simp [Ideal.ofBits, Ideal.ieee]

theorem ofBits_posInf : Ideal.ofBits .f32 0x7F800000#32 = ⊤ := by
  simp [Ideal.ofBits, Ideal.ieee]

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_inv65536 : Ideal.ofBits .f32 0x37800000#32 = ((1 / 65536 : ℝ) : EReal) := by
  simp [Ideal.ofBits, Ideal.ieee, -EReal.coe_mul]; norm_num

theorem ofBits_65536 : Ideal.ofBits .f32 0x47800000#32 = ((65536 : ℝ) : EReal) := by
  simp [Ideal.ofBits, Ideal.ieee, -EReal.coe_mul]; norm_num

theorem ofBits_v : Ideal.ofBits .f32 0x41135D8E#32 = ((9657742 / 1048576 : ℝ) : EReal) := by
  simp [Ideal.ofBits, Ideal.ieee, -EReal.coe_mul]; norm_num

theorem ofBits_neg_v : Ideal.ofBits .f32 0xC1135D8E#32 = ((-(9657742 / 1048576) : ℝ) : EReal) := by
  simp [Ideal.ofBits, Ideal.ieee, -EReal.coe_mul]; norm_num

theorem ofBits_tiny : Ideal.ofBits .f32 0x33D6BF95#32 = ((14073749 / 140737488355328 : ℝ) : EReal) := by
  simp [Ideal.ofBits, Ideal.ieee, -EReal.coe_mul]; norm_num

end Cert.Consts

end
-- ==== Proof.Spec.lean ====
/-
  Symmetric cross entropy over N = 65536 rows of C = 1000 logits, as ONE function of the two argument arrays,
  on the extended reals.

  Per row x (a function on the 1000 classes) and target class c:
    rowMax x   = max_j x j                      (a fold of max from -inf)
    shifted x j = x j - rowMax x
    expo x j    = exp (shifted x j)
    sumExp x    = sum_j expo x j
    prob x j    = expo x j / sumExp x
    clipped x j = min 1 (max 1e-7 (prob x j))   (the two literals are the same f32 words in both programs)
    pSum x      = sum_j clipped x j
    logp x c    = shifted x c - log (sumExp x)  (the log-probability of the target class)
    rest x c    = pSum x - clipped x c          (the clipped mass off the target class)
  The loss is  -(mean_r logp) + -(mean_r (log 1e-4) * rest), the two programs differing only in how the
  means are arranged: the kernel sums tile by tile (64 tiles of 1024 rows), negates and scales inside the sum
  and multiplies by 2^-16; the reference sums all rows, divides by 65536 and negates. `kernelVal` and `refVal`
  are those two arrangements over abstract per-row terms a, b.
-/
import Idealize.ShloMosaic.PureOps.Ideal
import Idealize.ShloMosaic.PureOps.Ideal.Laws
import Idealize.ShloMosaic.Lib.ValueIdx
import proofs.«427901_j11751030522421_2_alg».proof.Proof.Consts

noncomputable section

namespace Cert.SymCE

open Idealize.ShloMosaic Idealize.ShloMosaic.ValueIdx

/-- An f32 word read as an extended real. -/
abbrev W (b : BitVec 32) : EReal := Ideal.ofBits .f32 b

/-! ## One row -/

section Row
variable (x : Fin 1000 → EReal)

/-- The row's maximum, folded from the word of -inf. -/
def rowMax : EReal := (Finset.univ : Finset (Fin 1000)).fold max (W 0xFF800000#32) x
def shifted (j : Fin 1000) : EReal := x j - rowMax x
def expo (j : Fin 1000) : EReal := Ideal.exp (shifted x j)
def sumExp : EReal := ∑ j : Fin 1000, expo x j
def prob (j : Fin 1000) : EReal := Ideal.div (expo x j) (sumExp x)
def clipped (j : Fin 1000) : EReal := min (W 0x3F800000#32) (max (W 0x33D6BF95#32) (prob x j))
def pSum : EReal := ∑ j : Fin 1000, clipped x j
/-- The log-probability of class `c`. -/
def logp (c : Fin 1000) : EReal := shifted x c - Ideal.log (sumExp x)
/-- The clipped probability mass off class `c`. -/
def rest (c : Fin 1000) : EReal := pSum x - clipped x c

end Row

/-! ## The arrays -/

/-- The class a target word names (total: reduced mod 1000; on the label range it is the word's value). -/
def tcol (t : BitVec 32) : Fin 1000 := ⟨t.toNat % 1000, Nat.mod_lt _ (by decide)⟩

theorem tcol_val_of_lt {t : BitVec 32} (h : t.toNat < 1000) : (tcol t).val = t.toNat := Nat.mod_eq_of_lt h

section Arrays
variable (X : (⟨2, ![65536, 1000]⟩ : Shape).Idx → EReal) (T : (⟨1, ![65536]⟩ : Shape).Idx → BitVec 32)

/-- Row `r` of the logits. -/
def row (r : Fin 65536) : Fin 1000 → EReal := fun j => X (ix2 r j)
/-- Row `r`'s target log-probability and clipped off-target mass. -/
def ceAt (r : Fin 65536) : EReal := logp (row X r) (tcol (T (ix1 r)))
def rceAt (r : Fin 65536) : EReal := rest (row X r) (tcol (T (ix1 r)))

end Arrays

/-! ## The two arrangements of the means -/

/-- Row `p` of tile `t`. -/
def glob (t : Fin 64) (p : Fin 1024) : Fin 65536 := ⟨1024 * t.val + p.val, by omega⟩

/-- The kernel's arrangement: per tile the sum over its rows of `0 - a` and of `v * b`, then the sum over tiles
    from 0, times 2^-16, times 1, the two added. -/
def kernelVal (a b : Fin 65536 → EReal) : EReal :=
  W 0x3F800000#32 * ((W 0x00000000#32 + ∑ t : Fin 64, ∑ p : Fin 1024, (W 0x00000000#32 - a (glob t p))) * W 0x37800000#32)
  + W 0x3F800000#32 * ((W 0x00000000#32 + ∑ t : Fin 64, ∑ p : Fin 1024, W 0x41135D8E#32 * b (glob t p)) * W 0x37800000#32)

/-- The reference's arrangement: the sum over all rows from 0, divided by 65536, negated, times 1, the two added. -/
def refVal (a b : Fin 65536 → EReal) : EReal :=
  W 0x3F800000#32 * -(Ideal.div (W 0x00000000#32 + ∑ r : Fin 65536, a r) (W 0x47800000#32))
  + W 0x3F800000#32 * -(Ideal.div (W 0x00000000#32 + ∑ r : Fin 65536, W 0xC1135D8E#32 * b r) (W 0x47800000#32))

/-- The loss as one function of the argument arrays (stated in the reference's arrangement). -/
def loss (X : (⟨2, ![65536, 1000]⟩ : Shape).Idx → EReal) (T : (⟨1, ![65536]⟩ : Shape).Idx → BitVec 32) : EReal :=
  refVal (ceAt X T) (rceAt X T)

/-! ## What finiteness gives, and the law that joins the two arrangements -/

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a row of reals, folded from -inf, is a real: it is above the first entry and below +inf. -/
theorem rowMax_real (x : Fin 1000 → EReal) (u : Fin 1000 → ℝ) (hu : ∀ j, x j = (u j : EReal)) :
    ∃ M : ℝ, rowMax x = (M : EReal) := by
  have hbot : rowMax x ≠ ⊥ := by
    have h0 : x 0 ≤ rowMax x := (Finset.le_fold_max _).mpr (Or.inr ⟨0, Finset.mem_univ _, le_rfl⟩)
    intro h; rw [h, hu 0] at h0; exact absurd h0 (not_le.mpr (EReal.bot_lt_coe _))
  have htop : rowMax x ≠ ⊤ := by
    have : rowMax x < ⊤ := by
      unfold rowMax
      rw [Finset.fold_max_lt]
      refine ⟨?_, fun j _ => by rw [hu j]; exact EReal.coe_lt_top _⟩
      show Ideal.ofBits .f32 0xFF800000#32 < ⊤
      rw [Cert.Consts.ofBits_negInf]; exact bot_lt_top
    exact this.ne
  exact ⟨(rowMax x).toReal, (EReal.coe_toReal htop hbot).symm⟩

/-- On a row of reals the target's log-probability and the clipped off-target mass are reals: the shifted entries
    are reals, their exponentials positive reals, so their sum is a positive real, whose logarithm and whose
    quotients are real; clipping between two real words and summing keeps them real. -/
theorem row_real (x : Fin 1000 → EReal) (hx : ∀ j, ∃ u : ℝ, x j = (u : EReal)) (c : Fin 1000) :
    (∃ u : ℝ, logp x c = (u : EReal)) ∧ (∃ u : ℝ, rest x c = (u : EReal)) := by
  choose u hu using hx
  obtain ⟨M, hM⟩ := rowMax_real x u hu
  have hsh : ∀ j, shifted x j = ((u j - M : ℝ) : EReal) := fun j => by
    unfold shifted; rw [hu j, hM, EReal.coe_sub]
  have hex : ∀ j, expo x j = ((Real.exp (u j - M) : ℝ) : EReal) := fun j => by
    unfold expo; rw [hsh j, Ideal.exp_coe]
  have hS : sumExp x = ((∑ j : Fin 1000, Real.exp (u j - M) : ℝ) : EReal) := by
    unfold sumExp; rw [coe_sum]; exact Finset.sum_congr rfl fun j _ => hex j
  have hSpos : 0 < ∑ j : Fin 1000, Real.exp (u j - M) :=
    Finset.sum_pos (fun j _ => Real.exp_pos _) ⟨0, Finset.mem_univ _⟩
  have hcl : ∀ j, ∃ q : ℝ, clipped x j = (q : EReal) := fun j => by
    refine ⟨min 1 (max (14073749 / 140737488355328) (Real.exp (u j - M) * (1 / ∑ j : Fin 1000, Real.exp (u j - M)))), ?_⟩
    unfold clipped prob
    show min (Ideal.ofBits .f32 0x3F800000#32) (max (Ideal.ofBits .f32 0x33D6BF95#32) _) = _
    rw [hex j, hS, Ideal.div_coe hSpos.ne', Cert.Consts.ofBits_one, Cert.Consts.ofBits_tiny, ← EReal.coe_mul,
      ← EReal.coe_strictMono.monotone.map_max, ← EReal.coe_one, ← EReal.coe_strictMono.monotone.map_min]
  choose q hq using hcl
  have hP : pSum x = ((∑ j : Fin 1000, q j : ℝ) : EReal) := by
    unfold pSum; rw [coe_sum]; exact Finset.sum_congr rfl fun j _ => hq j
  refine ⟨⟨u c - M - Real.log (∑ j : Fin 1000, Real.exp (u j - M)), ?_⟩, ⟨(∑ j : Fin 1000, q j) - q c, ?_⟩⟩
  · unfold logp; rw [hsh c, hS, Ideal.log_coe, if_neg (not_le.mpr hSpos), ← EReal.coe_sub]
  · unfold rest; rw [hP, hq c, ← EReal.coe_sub]

/-- On finite logits every row's target log-probability is a real number. -/
theorem ceAt_real (X : (⟨2, ![65536, 1000]⟩ : Shape).Idx → EReal) (T : (⟨1, ![65536]⟩ : Shape).Idx → BitVec 32)
    (hX : ∀ i, ∃ u : ℝ, X i = (u : EReal)) (r : Fin 65536) : ∃ u : ℝ, ceAt X T r = (u : EReal) :=
  (row_real (row X r) (fun j => hX (ix2 r j)) _).1

/-- On finite logits every row's clipped off-target mass is a real number. -/
theorem rceAt_real (X : (⟨2, ![65536, 1000]⟩ : Shape).Idx → EReal) (T : (⟨1, ![65536]⟩ : Shape).Idx → BitVec 32)
    (hX : ∀ i, ∃ u : ℝ, X i = (u : EReal)) (r : Fin 65536) : ∃ u : ℝ, rceAt X T r = (u : EReal) :=
  (row_real (row X r) (fun j => hX (ix2 r j)) _).2

/-- The rows as pairs (tile, row in the tile): row 1024 t + p. -/
def globEquiv : Fin 64 × Fin 1024 ≃ Fin 65536 where
  toFun tp := glob tp.1 tp.2
  invFun r := (⟨r.val / 1024, by have := r.isLt; omega⟩, ⟨r.val % 1024, by omega⟩)
  left_inv tp := by
    rcases tp with ⟨t, p⟩
    have ht := t.isLt; have hp := p.isLt
    refine Prod.ext (Fin.ext ?_) (Fin.ext ?_) <;> simp only [glob] <;> omega
  right_inv r := by
    refine Fin.ext ?_; simp only [glob]; omega

/-- A sum over tiles of sums over a tile's rows is the sum over all rows. -/
theorem sum_tiles {M : Type*} [AddCommMonoid M] (f : Fin 65536 → M) :
    ∑ t : Fin 64, ∑ p : Fin 1024, f (glob t p) = ∑ r : Fin 65536, f r := by
  rw [← Equiv.sum_comp globEquiv f, Fintype.sum_prod_type]; rfl

/-- The two arrangements over real per-row terms, as an identity of real numbers. -/
theorem real_arrangements (a' b' : Fin 65536 → ℝ) (v : ℝ) :
    1 * ((0 + ∑ r : Fin 65536, (0 - a' r)) * (1 / 65536)) + 1 * ((0 + ∑ r : Fin 65536, v * b' r) * (1 / 65536))
      = 1 * -((0 + ∑ r : Fin 65536, a' r) * (1 / 65536)) + 1 * -((0 + ∑ r : Fin 65536, -v * b' r) * (1 / 65536)) := by
  simp only [zero_sub, Finset.sum_neg_distrib, ← Finset.mul_sum, neg_mul, zero_add, one_mul]
  ring

/-- The same on the extended reals, the constants abstract: any `one`, `zero`, `c`, `n`, `vp`, `vn` that denote
    1, 0, 2^-16, 65536, v and -v. -/
theorem arrange_eq (one zero c n vp vn : EReal) (v : ℝ) (h1 : one = 1) (h0 : zero = 0)
    (hc : c = ((1 / 65536 : ℝ) : EReal)) (hn : n = ((65536 : ℝ) : EReal)) (hvp : vp = (v : EReal))
    (hvn : vn = ((-v : ℝ) : EReal)) (a' b' : Fin 65536 → ℝ) :
    one * ((zero + ∑ t : Fin 64, ∑ p : Fin 1024, (zero - (a' (glob t p) : EReal))) * c)
        + one * ((zero + ∑ t : Fin 64, ∑ p : Fin 1024, vp * (b' (glob t p) : EReal)) * c)
      = one * -(Ideal.div (zero + ∑ r : Fin 65536, (a' r : EReal)) n)
        + one * -(Ideal.div (zero + ∑ r : Fin 65536, vn * (b' r : EReal)) n) := by
  subst h1 h0 hc hn hvp hvn
  have e1 := sum_tiles (fun r : Fin 65536 => (0 : EReal) - (a' r : EReal))
  have e2 := sum_tiles (fun r : Fin 65536 => (v : EReal) * (b' r : EReal))
  beta_reduce at e1 e2
  rw [e1, e2, Ideal.div_coe (by norm_num : (65536 : ℝ) ≠ 0), Ideal.div_coe (by norm_num : (65536 : ℝ) ≠ 0)]
  simp only [← EReal.coe_one, ← EReal.coe_zero, ← EReal.coe_sub, ← EReal.coe_mul, ← coe_sum, ← EReal.coe_add,
    ← EReal.coe_neg]
  exact congrArg Real.toEReal (real_arrangements a' b' v)

/-- Over real per-row terms the two arrangements are one number: a sum over tiles of sums over a tile's rows is the
    sum over all rows, negation and the scale v commute with finite sums of reals, the two words of v differ in the
    sign, and multiplying by 2^-16 is dividing by 65536. -/
theorem kernelVal_eq_refVal (a b : Fin 65536 → EReal) (ha : ∀ r, ∃ u : ℝ, a r = (u : EReal))
    (hb : ∀ r, ∃ u : ℝ, b r = (u : EReal)) : kernelVal a b = refVal a b := by
  choose a' ha' using ha
  choose b' hb' using hb
  obtain rfl : a = fun r => (a' r : EReal) := funext ha'
  obtain rfl : b = fun r => (b' r : EReal) := funext hb'
  exact arrange_eq _ _ _ _ _ _ (9657742 / 1048576) Cert.Consts.ofBits_one Cert.Consts.ofBits_zero
    Cert.Consts.ofBits_inv65536 Cert.Consts.ofBits_65536 Cert.Consts.ofBits_v Cert.Consts.ofBits_neg_v a' b'

end Cert.SymCE

end
-- ==== Proof.PreDecode.lean ====
/-
  What the precondition says of the two argument arrays: every logit is a real number (its absolute value is
  below +inf), and every target word, read signed, lies in 0 ≤ t < 1000, so that its unsigned value is below 1000.
-/
import proofs.«427901_j11751030522421_2_alg».proof.Pre_finite_inputs
import proofs.«427901_j11751030522421_2_alg».proof.Proof.Gen.Pre_finite_inputs
import proofs.«427901_j11751030522421_2_alg».proof.Proof.Consts
import Idealize.ShloMosaic.PureOps.Ideal
import Idealize.ShloMosaic.Lib.ValueIdx
import Idealize.ShloMosaic.Lib.ReduceAll
import Idealize.ShloMosaic.Lib.StableHlo.Predicate
import Mathlib.Data.EReal.Operations

noncomputable section

namespace Cert.PreDecode

open Idealize.ShloMosaic Idealize.ShloMosaic.ValueIdx Cert.Pre_finite_inputs

/-- An extended real whose absolute value `max x (-x)` is below `⊤` is neither `⊤` (then `x` itself is `⊤`) nor
    `⊥` (then `-x` is `⊤`): it is a real number. -/
theorem real_of_abs_lt_top (x : EReal) (hx : max x (-x) < ⊤) : ∃ u : ℝ, x = (u : EReal) := by
  obtain ⟨h1, h2⟩ := max_lt_iff.1 hx
  induction x using EReal.rec with
  | bot => rw [EReal.neg_bot] at h2; exact absurd h2 (lt_irrefl _)
  | coe u => exact ⟨u, rfl⟩
  | top => exact absurd h1 (lt_irrefl _)

/-- The ordered comparison `|x| < +inf` coming out 1, with `+inf` spelled as its f32 word, says `x` is a real number. -/
theorem real_of_cmp (x : EReal)
    (e : Ideal.cmp .olt (max x (-x)) (Ideal.ofBits .f32 0x7F800000#32) = 1#1) : ∃ u : ℝ, x = (u : EReal) := by
  rw [Cert.Consts.ofBits_posInf] at e
  have hb : decide (max x (-x) < (⊤ : EReal)) = true := (StableHlo.Predicate.ofBool_eq_one_iff _).1 e
  exact real_of_abs_lt_top x (of_decide_eq_true hb)

/-- A 32-bit word that compares `≥ 0` and `< 1000` as a signed number: its top bit is clear, so it reads the same
    signed and unsigned, and its unsigned value is below 1000. -/
theorem toNat_lt_of_signed {t : BitVec 32} (h0 : IntOp.cmpi .sge t 0#32 = 1#1) (h1 : IntOp.cmpi .slt t 1000#32 = 1#1) :
    t.toNat < 1000 := by
  have a : (0#32 : BitVec 32).toInt ≤ t.toInt := IntOp.cmpi_sge.1 h0
  have b : t.toInt < (1000#32 : BitVec 32).toInt := IntOp.cmpi_slt.1 h1
  rw [show (0#32 : BitVec 32).toInt = 0 from by decide] at a
  rw [show (1000#32 : BitVec 32).toInt = 1000 from by decide] at b
  have c : 2 * t.toNat < 2 ^ 32 := BitVec.toInt_pos_iff.1 a
  rw [BitVec.toInt_eq_toNat_of_lt c] at b
  omega

theorem of_pre [Cert.Pre_finite_inputs.Facts] (X : FVec Ideal S65536x1000 .f32) (T : IVec S65536 32)
    (h : Cert.Pre_finite_inputs.fn (F := Ideal) X T = fun _ => 1#1) :
    (∀ i, ∃ u : ℝ, X i = (u : EReal)) ∧ (∀ r : Fin 65536, (T (ix1 r)).toNat < 1000) := by
  -- the result array has one index
  haveI : Subsingleton S_.Idx := ⟨fun a b => funext fun d => d.elim0⟩
  -- the result bit is the AND of the three all-reductions: each of them is 1
  have h0 := congrFun h ix0
  dsimp only [Cert.Pre_finite_inputs.fn] at h0
  obtain ⟨h12, h3⟩ := IntOp.andi_eq_one.1 h0
  obtain ⟨h1, h2⟩ := IntOp.andi_eq_one.1 h12
  -- an AND-reduction over all axes that is 1 had the bit 1 at every index
  refine ⟨fun i => ?_, fun r => ?_⟩
  · exact real_of_cmp (X i) (Host.reduce_andi_all _ _ _ _ _ h1 i)
  · exact toNat_lt_of_signed (Host.reduce_andi_all _ _ _ _ _ h2 (ix1 r)) (Host.reduce_andi_all _ _ _ _ _ h3 (ix1 r))

end Cert.PreDecode

end
-- ==== Proof.RefValue.lean ====
/-
  The reference's result, read one operation at a time, is the loss of the specification: on the label range the
  gather's start index (row r, the target word wrapped and clamped) is (r, the target's class).
-/
import proofs.«427901_j11751030522421_2_alg».proof.Proof.RefRead
import proofs.«427901_j11751030522421_2_alg».proof.Proof.Spec
import Idealize.ShloMosaic.PureOps.Reduce
import Idealize.ShloMosaic.PureOps.Ideal.Laws
import Idealize.ShloMosaic.Lib.Pipeline.Value
import Idealize.ShloMosaic.Lib.ValueIdx
import Idealize.ShloMosaic.Lib.ValueIdxRank1

noncomputable section

namespace Cert.ReferenceIdeal.RValue

open Cert.ReferenceIdeal Cert.ReferenceIdeal.Gen Idealize.ShloMosaic Idealize.ShloMosaic.ValueIdx Cert.SymCE
open Cert.ReferenceIdeal.ReadP

/-- A witness of the one-axis reduction of the logits' shape, naming the inserted index. -/
theorem red1 : S65536x1000.Reduces [1] S65536 := by decide

/-- Row index `r` with class `k` inserted on the reduced axis is the pair (r, k). -/
theorem lift_eq (r : Fin 65536) (k : Fin 1000) : red1.lift (ix1 r) k = ix2 r k :=
  funext fun a => Fin.ext (by match a with | ⟨0, _⟩ => rfl | ⟨1, _⟩ => rfl)

/-- A fold of max from b is at least b, so a further max with b changes nothing. -/
theorem max_rowMax (x : Fin 1000 → EReal) : max (W 0xFF800000#32) (rowMax x) = rowMax x :=
  max_eq_right ((Finset.le_fold_max _).2 (Or.inl le_rfl))

section Stages
/-- The word of 0, as the reference's operations spell it, is the extended real 0. -/
theorem zeroWord : (FloatOps.ofBits (F := Ideal) .f32 0x00000000#32 : EReal) = 0 := Cert.Consts.ofBits_zero

variable (X : FVec Ideal S65536x1000 .f32) (T : IVec S65536 32)

/-! ## The log-softmax stages of row r -/

theorem call0_v0_at (r : Fin 65536) : val_main_call0_v0 (F := Ideal) X (ix1 r) = rowMax (row X r) := by
  unfold val_main_call0_v0
  rw [Host.reduce_eq_fold_single FloatOps.maximumf X _ reducesTo_S65536x1000_S65536_d1 red1 h_S_ (ix1 r)]
  exact congrArg (fun f => Finset.fold max (W 0xFF800000#32) f Finset.univ)
    (funext fun k => congrArg X (lift_eq r k))

theorem call0_v2_at (r : Fin 65536) : val_main_call0_v2 (F := Ideal) X (ix1 r) = rowMax (row X r) := by
  rw [val_main_call0_v2_apply, val_main_call0_v1_apply, val_main_call0_cst_0_apply, call0_v0_at]
  exact max_rowMax _

theorem call0_v4_at (r : Fin 65536) (j : Fin 1000) :
    val_main_call0_v4 (F := Ideal) X (ix2 r j) = rowMax (row X r) := by
  rw [val_main_call0_v4_apply, val_main_call0_v3_apply,
    show idx_main_call0_v3 (idx_main_call0_v4 (ix2 r j)) = ix1 r from
      funext fun a => Fin.ext (by match a with | ⟨0, _⟩ => rfl)]
  exact call0_v2_at X r

theorem call0_v5_at (r : Fin 65536) (j : Fin 1000) :
    val_main_call0_v5 (F := Ideal) X (ix2 r j) = shifted (row X r) j := by
  rw [val_main_call0_v5_apply, call0_v4_at]; rfl

theorem call0_v6_at (r : Fin 65536) (j : Fin 1000) :
    val_main_call0_v6 (F := Ideal) X (ix2 r j) = expo (row X r) j := by
  rw [val_main_call0_v6_apply, call0_v5_at]; rfl

theorem call0_v7_at (r : Fin 65536) : val_main_call0_v7 (F := Ideal) X (ix1 r) = sumExp (row X r) := by
  rw [val_main_call0_v7_apply, val_main_call0_cst_1_apply]
  rw [zeroWord, zero_add]
  refine Finset.sum_congr rfl fun k _ => ?_
  rw [show idx_main_call0_v7 (ix1 r) k = ix2 r k from
    funext fun a => Fin.ext (by match a with | ⟨0, _⟩ => rfl | ⟨1, _⟩ => rfl)]
  exact call0_v6_at X r k

theorem call0_v10_at (r : Fin 65536) (j : Fin 1000) :
    val_main_call0_v10 (F := Ideal) X (ix2 r j) = Ideal.log (sumExp (row X r)) := by
  rw [val_main_call0_v10_apply, val_main_call0_v9_apply, val_main_call0_v8_apply,
    show idx_main_call0_v8 (idx_main_call0_v10 (ix2 r j)) = ix1 r from
      funext fun a => Fin.ext (by match a with | ⟨0, _⟩ => rfl), call0_v7_at]
  rfl

/-- The log-softmax of row r at class j is the log-probability of j. -/
theorem v0_at (r : Fin 65536) (j : Fin 1000) : val_main_v0 (F := Ideal) X (ix2 r j) = logp (row X r) j := by
  rw [val_main_v0_apply, call0_v5_at, call0_v10_at]; rfl

/-! ## The softmax and clip stages of row r -/

theorem v19_at (r : Fin 65536) : val_main_v19 (F := Ideal) X (ix1 r) = rowMax (row X r) := by
  unfold val_main_v19
  rw [Host.reduce_eq_fold_single FloatOps.maximumf X _ reducesTo_S65536x1000_S65536_d1 red1 h_S_ (ix1 r)]
  exact congrArg (fun f => Finset.fold max (W 0xFF800000#32) f Finset.univ)
    (funext fun k => congrArg X (lift_eq r k))

theorem v21_at (r : Fin 65536) : val_main_v21 (F := Ideal) X (ix1 r) = rowMax (row X r) := by
  rw [val_main_v21_apply, val_main_v20_apply, val_main_cst_5_apply, v19_at]
  exact max_rowMax _

theorem v23_at (r : Fin 65536) (j : Fin 1000) :
    val_main_v23 (F := Ideal) X (ix2 r j) = rowMax (row X r) := by
  rw [val_main_v23_apply, val_main_v22_apply,
    show idx_main_v22 (idx_main_v23 (ix2 r j)) = ix1 r from
      funext fun a => Fin.ext (by match a with | ⟨0, _⟩ => rfl)]
  exact v21_at X r

theorem v25_at (r : Fin 65536) (j : Fin 1000) :
    val_main_v25 (F := Ideal) X (ix2 r j) = expo (row X r) j := by
  rw [val_main_v25_apply, val_main_v24_apply, v23_at]; rfl

theorem v26_at (r : Fin 65536) : val_main_v26 (F := Ideal) X (ix1 r) = sumExp (row X r) := by
  rw [val_main_v26_apply, val_main_cst_6_apply]
  rw [zeroWord, zero_add]
  refine Finset.sum_congr rfl fun k _ => ?_
  rw [show idx_main_v26 (ix1 r) k = ix2 r k from
    funext fun a => Fin.ext (by match a with | ⟨0, _⟩ => rfl | ⟨1, _⟩ => rfl)]
  exact v25_at X r k

theorem v28_at (r : Fin 65536) (j : Fin 1000) :
    val_main_v28 (F := Ideal) X (ix2 r j) = sumExp (row X r) := by
  rw [val_main_v28_apply, val_main_v27_apply,
    show idx_main_v27 (idx_main_v28 (ix2 r j)) = ix1 r from
      funext fun a => Fin.ext (by match a with | ⟨0, _⟩ => rfl)]
  exact v26_at X r

theorem v29_at (r : Fin 65536) (j : Fin 1000) :
    val_main_v29 (F := Ideal) X (ix2 r j) = prob (row X r) j := by
  rw [val_main_v29_apply, v25_at, v28_at]; rfl

/-- The clipped softmax of row r at class j. -/
theorem v30_at (r : Fin 65536) (j : Fin 1000) :
    val_main_v30 (F := Ideal) X (ix2 r j) = clipped (row X r) j := by
  rw [val_main_v30_apply, val_main_call1_v4_apply, val_main_call1_v3_apply, val_main_cst_8_apply,
    val_main_call1_v2_apply, val_main_call1_v1_apply, val_main_call1_v0_apply, val_main_cst_7_apply, v29_at]
  rfl

theorem v31_at (r : Fin 65536) : val_main_v31 (F := Ideal) X (ix1 r) = pSum (row X r) := by
  rw [val_main_v31_apply, val_main_cst_9_apply]
  rw [zeroWord, zero_add]
  refine Finset.sum_congr rfl fun k _ => ?_
  rw [show idx_main_v31 (ix1 r) k = ix2 r k from
    funext fun a => Fin.ext (by match a with | ⟨0, _⟩ => rfl | ⟨1, _⟩ => rfl)]
  exact v30_at X r k

/-! ## The gather's start index -/

/-- The wrap "if t < 0 then t + n else t" is the identity on a word that is non-negative read signed. -/
theorem wrap_id (t n : BitVec 32) (h : 2 * t.toNat < 2 ^ 32) :
    Scalar.select (IntOp.cmpi .slt t 0#32) (IntOp.addi t n) t = t := by
  have hs : t.slt 0#32 = false := by
    rw [BitVec.slt_zero_eq_msb]; exact BitVec.msb_eq_false_iff_two_mul_lt.2 h
  show (if BitVec.ofBool (t.slt 0#32) = 1 then IntOp.addi t n else t) = t
  rw [hs]; rfl

/-- A word non-negative read signed has its unsigned value as its signed value. -/
theorem toInt_toNat_of_lt (t : BitVec 32) (h : 2 * t.toNat < 2 ^ 32) : t.toInt.toNat = t.toNat := by
  rw [BitVec.toInt_eq_toNat_of_lt h, Int.toNat_natCast]

theorem v6_at (r : Fin 65536) : val_main_v6 (F := Ideal) (ix1 r) = BitVec.ofNat 32 r.val := by
  rw [val_main_v6_apply, val_main_v3_apply, val_main_v5_apply, val_main_v1_apply, val_main_v2_apply,
    val_main_c_apply, val_main_v4_apply, val_main_c_0_apply]
  refine wrap_id _ _ ?_
  show 2 * (BitVec.ofNat 32 r.val).toNat < 2 ^ 32
  rw [BitVec.toNat_ofNat, Nat.mod_eq_of_lt (by have := r.isLt; omega)]
  have := r.isLt; omega

theorem v11_at (hT : ∀ r : Fin 65536, (T (ix1 r)).toNat < 1000) (r : Fin 65536) :
    val_main_v11 (F := Ideal) T (ix1 r) = T (ix1 r) := by
  rw [val_main_v11_apply, val_main_v8_apply, val_main_v10_apply, val_main_v7_apply, val_main_c_1_apply,
    val_main_v9_apply, val_main_c_2_apply]
  exact wrap_id _ _ (by have := hT r; omega)

theorem v14_at0 (r : Fin 65536) : val_main_v14 (F := Ideal) T (ix2 r 0) = BitVec.ofNat 32 r.val := by
  unfold val_main_v14
  rw [Idealize.ShloMosaic.concatenate_pair_apply_left (t := S65536x2) (s₁ := S65536x1) (s₂ := S65536x1) 1
      (val_main_v12 (F := Ideal)) (val_main_v13 (F := Ideal) T) concatenates_S65536x1_S65536x1_S65536x2_d1
      (ix2 r (0 : Fin 2)) rfl (ix2 r (0 : Fin 1)) (fun b => by match b with | ⟨0, _⟩ => rfl | ⟨1, _⟩ => rfl),
    val_main_v12_apply,
    show idx_main_v12 (ix2 r (0 : Fin 1)) = ix1 r from funext fun a => Fin.ext (by match a with | ⟨0, _⟩ => rfl)]
  exact v6_at r

theorem v14_at1 (hT : ∀ r : Fin 65536, (T (ix1 r)).toNat < 1000) (r : Fin 65536) :
    val_main_v14 (F := Ideal) T (ix2 r 1) = T (ix1 r) := by
  unfold val_main_v14
  rw [Idealize.ShloMosaic.concatenate_pair_apply_right (t := S65536x2) (s₁ := S65536x1) (s₂ := S65536x1) 1
      (val_main_v12 (F := Ideal)) (val_main_v13 (F := Ideal) T) concatenates_S65536x1_S65536x1_S65536x2_d1
      (ix2 r (1 : Fin 2)) rfl rfl (ix2 r (0 : Fin 1))
      (fun b hb => by match b, hb with | ⟨0, _⟩, _ => rfl | ⟨1, _⟩, hb => exact absurd rfl hb) rfl,
    val_main_v13_apply,
    show idx_main_v13 (ix2 r (0 : Fin 1)) = ix1 r from funext fun a => Fin.ext (by match a with | ⟨0, _⟩ => rfl)]
  exact v11_at T hT r

/-- A gather with both operand axes collapsed, at row r, reads the operand at the start index's two components,
    each read signed and clamped to its axis; for in-range components that is the pair itself. -/
theorem gather_at {α : Type} (x : S65536x1000.Idx → α) (idx : IVec S65536x2 32) (r : Fin 65536) (c : Fin 1000)
    (h0 : (idx (ix2 r 0)).toInt.toNat = r.val) (h1 : (idx (ix2 r 1)).toInt.toNat = c.val) :
    Host.gather gather_S65536x1000_S65536x2_S65536_n_01_n_n_01_1_11 x idx (ix1 r) = x (ix2 r c) := by
  unfold Host.gather
  congr 1
  funext a
  refine Fin.ext ?_
  match a with
  | ⟨0, _⟩ =>
    show gather_S65536x1000_S65536x2_S65536_n_01_n_n_01_1_11.start (ix1 r) idx 0
      + gather_S65536x1000_S65536x2_S65536_n_01_n_n_01_1_11.batchCoord (ix1 r) 0
      + gather_S65536x1000_S65536x2_S65536_n_01_n_n_01_1_11.offCoord (ix1 r) 0 = r.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S65536x1000_S65536x2_S65536_n_01_n_n_01_1_11.startIndexMap from by decide)]
    have hsi : gather_S65536x1000_S65536x2_S65536_n_01_n_n_01_1_11.siIdx (ix1 r)
        ⟨List.idxOf (0 : Fin 2) gather_S65536x1000_S65536x2_S65536_n_01_n_n_01_1_11.startIndexMap,
          List.idxOf_lt_length_iff.2 (by decide)⟩ = ix2 r 0 := by
      funext b; refine Fin.ext ?_
      match b with
      | ⟨0, _⟩ => rfl
      | ⟨1, _⟩ => rfl
    rw [hsi, h0]
    exact Nat.min_eq_left (by have := r.isLt; show r.val ≤ 65536 - 1; omega)
  | ⟨1, _⟩ =>
    show gather_S65536x1000_S65536x2_S65536_n_01_n_n_01_1_11.start (ix1 r) idx 1
      + gather_S65536x1000_S65536x2_S65536_n_01_n_n_01_1_11.batchCoord (ix1 r) 1
      + gather_S65536x1000_S65536x2_S65536_n_01_n_n_01_1_11.offCoord (ix1 r) 1 = c.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S65536x1000_S65536x2_S65536_n_01_n_n_01_1_11.startIndexMap from by decide)]
    have hsi : gather_S65536x1000_S65536x2_S65536_n_01_n_n_01_1_11.siIdx (ix1 r)
        ⟨List.idxOf (1 : Fin 2) gather_S65536x1000_S65536x2_S65536_n_01_n_n_01_1_11.startIndexMap,
          List.idxOf_lt_length_iff.2 (by decide)⟩ = ix2 r 1 := by
      funext b; refine Fin.ext ?_
      match b with
      | ⟨0, _⟩ => rfl
      | ⟨1, _⟩ => rfl
    rw [hsi, h1]
    exact Nat.min_eq_left (by have := c.isLt; show c.val ≤ 1000 - 1; omega)

/-! ## The two gathered arrays, the two sums, the result -/

/-- The second gather's start indices are computed by the same operations as the first's. -/
theorem v44_eq : val_main_v44 (F := Ideal) T = val_main_v14 (F := Ideal) T := rfl

section Assembly
variable (hT : ∀ r : Fin 65536, (T (ix1 r)).toNat < 1000)
include hT

/-- The start index at row r is (r, the target word), both in range. -/
theorem start0 (r : Fin 65536) : (val_main_v14 (F := Ideal) T (ix2 r 0)).toInt.toNat = r.val := by
  have hr := r.isLt
  have hn : (BitVec.ofNat 32 r.val).toNat = r.val := by
    rw [BitVec.toNat_ofNat]; exact Nat.mod_eq_of_lt (by omega)
  rw [v14_at0, toInt_toNat_of_lt _ (by rw [hn]; omega), hn]

theorem start1 (r : Fin 65536) :
    (val_main_v14 (F := Ideal) T (ix2 r 1)).toInt.toNat = (tcol (T (ix1 r))).val := by
  rw [v14_at1 T hT r, toInt_toNat_of_lt _ (by have := hT r; omega)]
  exact (tcol_val_of_lt (hT r)).symm

theorem v15_at (r : Fin 65536) : val_main_v15 (F := Ideal) X T (ix1 r) = ceAt X T r := by
  unfold val_main_v15
  rw [gather_at _ _ r (tcol (T (ix1 r))) (start0 T hT r) (start1 T hT r)]
  exact v0_at X r _

theorem v45_at (r : Fin 65536) :
    val_main_v45 (F := Ideal) X T (ix1 r) = clipped (row X r) (tcol (T (ix1 r))) := by
  unfold val_main_v45
  rw [v44_eq T, gather_at _ _ r (tcol (T (ix1 r))) (start0 T hT r) (start1 T hT r)]
  exact v30_at X r _

theorem v48_at (r : Fin 65536) :
    val_main_v48 (F := Ideal) X T (ix1 r) = W 0xC1135D8E#32 * rceAt X T r := by
  rw [val_main_v48_apply, val_main_v47_apply, val_main_cst_14_apply, val_main_v46_apply, v31_at,
    v45_at X T hT]
  rfl

end Assembly

end Stages

theorem result_eq (X : FVec Ideal S65536x1000 .f32) (T : IVec S65536 32)
    (hT : ∀ r : Fin 65536, (T (ix1 r)).toNat < 1000) :
    Cert.ReferenceIdeal.ReadP.val_main_v54 (F := Ideal) X T = fun _ => loss X T := by
  funext i
  have h1 : ∑ j : S65536.Idx, val_main_v15 (F := Ideal) X T j = ∑ r : Fin 65536, ceAt X T r := by
    rw [← Equiv.sum_comp (idxEquiv1 (n := 65536)).symm]
    exact Finset.sum_congr rfl fun r _ => v15_at X T hT r
  have h2 : ∑ j : S65536.Idx, val_main_v48 (F := Ideal) X T j
      = ∑ r : Fin 65536, W 0xC1135D8E#32 * rceAt X T r := by
    rw [← Equiv.sum_comp (idxEquiv1 (n := 65536)).symm]
    exact Finset.sum_congr rfl fun r _ => v48_at X T hT r
  rw [val_main_v54_apply, val_main_v52_apply, val_main_v53_apply, val_main_cst_17_apply, val_main_cst_18_apply,
    val_main_v18_apply, val_main_v51_apply, val_main_v17_apply, val_main_v50_apply, val_main_cst_3_apply,
    val_main_cst_16_apply, val_main_v16_apply, val_main_v49_apply, val_main_cst_apply, val_main_cst_15_apply,
    h1, h2]
  rfl

end Cert.ReferenceIdeal.RValue
end
-- ==== Proof.KernelPay.lean ====
/-
  What the kernel's body stores for one tile, read at its two entries: entry 0 is the sum over the tile's 1024 rows
  of 0 - (log-probability of the row's target), entry 1 the sum of v times the row's clipped off-target mass. On the
  label range the masked sums over the class axis (the mask is iota == target) are the entries at the target.

  The order: first each operation that is not pointwise read at explicit coordinates (the two reductions over the
  class axis, the column forms of the shape cast and the broadcast, the reduction over the row axis, the iota, the
  two-piece concatenation and the last cast); then the mask; then the body's intermediate arrays by name, each read
  at (p, j) as the specification's per-row quantity; last the two entries.
-/
import proofs.«427901_j11751030522421_2_alg».proof.Proof.Gen.KernelIdeal.Skeleton
import proofs.«427901_j11751030522421_2_alg».proof.Proof.Spec
import Idealize.ShloMosaic.Lib.ValueLayout
import Idealize.ShloMosaic.PureOps.Ideal.Laws

noncomputable section

namespace Cert.KernelIdeal.KPay

open Cert.KernelIdeal Cert.KernelIdeal.Gen Idealize.ShloMosaic Idealize.ShloMosaic.ValueIdx Cert.SymCE

/-- The index a lane reduction over the class axis reads: row p, class j. -/
theorem lift_row (p : Fin 1024) (j : Fin 1000) :
    reduces_S1024x1000_S1024.lift (ix1 p) j = ix2 p j := by
  funext a; apply Fin.ext
  match a with
  | ⟨0, _⟩ => rfl
  | ⟨1, _⟩ => rfl

/-- The maximum-reduction over the class axis, from the word of -inf, is the row's maximum. -/
theorem rowMax_apply (v : FVec Ideal S1024x1000 .f32) (p : Fin 1024) :
    multiReduction .maximumf [1] S1024 v 0xFF800000#32 reduces_S1024x1000_S1024 (.inl rfl) rfl (ix1 p)
      = rowMax (fun j => v (ix2 p j)) := by
  refine (Ideal.multiReduction_maximumf_single v 0xFF800000#32 reduces_S1024x1000_S1024 (.inl rfl) rfl (ix1 p)).trans ?_
  have e : (v ∘ reduces_S1024x1000_S1024.lift (ix1 p)) = fun j : Fin 1000 => v (ix2 p j) :=
    funext fun j => congrArg v (lift_row p j)
  rw [e]
  rfl

/-- A sum-reduction over the class axis is the sum over the row's 1000 classes. -/
theorem rowSum_apply (v : FVec Ideal S1024x1000 .f32) (p : Fin 1024) :
    multiReduction .add [1] S1024 v 0x00000000#32 reduces_S1024x1000_S1024 (.inl rfl) rfl (ix1 p)
      = ∑ j : Fin 1000, v (ix2 p j) := by
  refine (Ideal.multiReduction_add_single v 0x00000000#32 reduces_S1024x1000_S1024 (.inl rfl) rfl (ix1 p)).trans ?_
  exact Finset.sum_congr rfl fun j _ => congrArg v (lift_row p j)

/-- A [1024] vector viewed as a [1024, 1] column reads, at (p, q), the vector at p. -/
theorem colCast_apply {α : Type} (w : S1024.Idx → α) (p : Fin 1024) (q : Fin 1) :
    shapeCast S1024x1 w shapeCasts_S1024_S1024x1 (ix2 p q) = w (ix1 p) :=
  shapeCast_apply w _ _ _ (by
    have hq : q.val = 0 := by omega
    rw [Shape.rowMajor_val_two, Shape.rowMajor_val_one]
    show p.val = p.val * 1 + q.val
    omega)

/-- A [1024, 1] column broadcast along the class axis reads, at (p, j), the column at (p, 0). -/
theorem colBroadcast_apply {α : Type} (w : S1024x1.Idx → α) (p : Fin 1024) (j : Fin 1000) :
    broadcastTo S1024x1000 w broadcasts_S1024x1_S1024x1000 (ix2 p j) = w (ix2 p 0) := by
  refine broadcastTo_apply w _ (ix2 p j) (ix2 p 0) fun ax => ?_
  match ax with
  | ⟨0, _⟩ => rfl
  | ⟨1, _⟩ => rfl

/-- The index a reduction over the row axis of a [1024, 1] column reads: row p of the one column. -/
theorem lift_col (q : Fin 1) (p : Fin 1024) :
    reduces_S1024x1_S1.lift (ix1 q) p = ix2 p q := by
  funext a; apply Fin.ext
  match a with
  | ⟨0, _⟩ => rfl
  | ⟨1, _⟩ => rfl

/-- A sum-reduction of a column over the row axis is the sum over its 1024 rows. -/
theorem colSum_apply (v : FVec Ideal S1024x1 .f32) (q : Fin 1) :
    multiReduction .add [0] S1 v 0x00000000#32 reduces_S1024x1_S1 (.inl rfl) rfl (ix1 q)
      = ∑ p : Fin 1024, v (ix2 p q) := by
  refine (Ideal.multiReduction_add_single v 0x00000000#32 reduces_S1024x1_S1 (.inl rfl) rfl (ix1 q)).trans ?_
  exact Finset.sum_congr rfl fun p _ => congrArg v (lift_col q p)

/-- A [1] vector viewed as [1, 1]. -/
theorem unitCast_apply {α : Type} (w : S1.Idx → α) (a b : Fin 1) :
    shapeCast S1x1 w shapeCasts_S1_S1x1 (ix2 a b) = w (ix1 b) :=
  shapeCast_a_1a_apply w _ a b

/-- The class-axis iota reads the class's number as a word. -/
theorem iota_apply (p : Fin 1024) (j : Fin 1000) :
    iota .tc S1024x1000 32 [1] iota_S1024x1000_d1_w32 (ix2 p j) = BitVec.ofNat 32 j.val :=
  iota_single_apply .tc S1024x1000 32 1 iota_S1024x1000_d1_w32 (ix2 p j)

/-- The two 1x1 results side by side: entry 0 is the first, entry 1 the second. -/
theorem pair_apply {α : Type} (a b : S1x1.Idx → α) (k : Fin 2) :
    concatenate S1x2 1 [⟨S1x1, a⟩, ⟨S1x1, b⟩] concatenates_S1x1_S1x1_S1x2_d1 (ix2 0 k)
      = if k = 0 then a (ix2 0 0) else b (ix2 0 0) := by
  match k with
  | ⟨0, _⟩ =>
    refine (concatenate_pair_apply_left (1 : Fin S1x2.rank) a b concatenates_S1x1_S1x1_S1x2_d1 (ix2 0 ⟨0, by omega⟩) rfl (ix2 0 0) fun c => ?_).trans ?_
    · match c with
      | ⟨0, _⟩ => rfl
      | ⟨1, _⟩ => rfl
    · rfl
  | ⟨1, _⟩ =>
    refine (concatenate_pair_apply_right (1 : Fin S1x2.rank) a b concatenates_S1x1_S1x1_S1x2_d1 (ix2 0 ⟨1, by omega⟩) rfl rfl (ix2 0 0) (fun c hc => ?_) rfl).trans ?_
    · match c with
      | ⟨0, _⟩ => rfl
      | ⟨1, _⟩ => exact absurd rfl hc
    · rfl

/-- The [1, 2] pair viewed as [1, 1, 2]. -/
theorem outCast_apply {α : Type} (w : S1x2.Idx → α) (k : Fin 2) :
    shapeCast S1x1x2 w shapeCasts_S1x2_S1x1x2 (ix3 0 0 k) = w (ix2 0 k) :=
  shapeCast_ab_1ab_apply w _ 0 0 k

/-! ## The mask -/

/-- For a target word on the label range, the word of class j is the target exactly when j is the target's class. -/
theorem word_eq_iff {t : BitVec 32} (ht : t.toNat < 1000) (j : Fin 1000) :
    BitVec.ofNat 32 j.val = t ↔ j = tcol t := by
  constructor
  · intro h
    apply Fin.ext
    rw [tcol_val_of_lt ht, ← h, BitVec.toNat_ofNat]
    exact (Nat.mod_eq_of_lt (Nat.lt_trans j.isLt (by decide))).symm
  · rintro rfl
    apply BitVec.eq_of_toNat_eq
    rw [BitVec.toNat_ofNat, tcol_val_of_lt ht]
    exact Nat.mod_eq_of_lt t.isLt

/-- The mask (class word == target word) selects the first operand at the target's class and the second elsewhere. -/
theorem mask_apply {t : BitVec 32} (ht : t.toNat < 1000) (j : Fin 1000) (a b : EReal) :
    Scalar.select (IntOp.cmpi .eq (BitVec.ofNat 32 j.val) t) a b = if j = tcol t then a else b := by
  by_cases h : j = tcol t
  · rw [if_pos h]
    have e : IntOp.cmpi .eq (BitVec.ofNat 32 j.val) t = 1#1 := by
      show BitVec.ofBool (BitVec.ofNat 32 j.val == t) = 1#1
      rw [(word_eq_iff ht j).mpr h, beq_self_eq_true]
      rfl
    rw [e]; exact select_one a b
  · rw [if_neg h]
    have e : IntOp.cmpi .eq (BitVec.ofNat 32 j.val) t = 0#1 := by
      show BitVec.ofBool (BitVec.ofNat 32 j.val == t) = 0#1
      rw [beq_false_of_ne fun e => h ((word_eq_iff ht j).mp e)]
      rfl
    rw [e]; exact select_zero a b

/-- A sum over the classes masked to the target's class (zero elsewhere) is the entry at the target. -/
theorem maskedSum {t : BitVec 32} (ht : t.toNat < 1000) (f : Fin 1000 → EReal) :
    ∑ j : Fin 1000, Scalar.select (IntOp.cmpi .eq (BitVec.ofNat 32 j.val) t) (f j) (W 0x00000000#32)
      = f (tcol t) := by
  have hz : W 0x00000000#32 = 0 := Cert.Consts.ofBits_zero
  rw [hz]
  simp only [mask_apply ht]
  exact (Finset.sum_ite_eq' Finset.univ (tcol t) f).trans (if_pos (Finset.mem_univ _))

/-! ## The body's arrays, read at an index -/

section Row
variable (x0 : Vec Ideal S1024x1000 .f32) (x1 : Vec Ideal S1024x1 .i32)

/-- The logits less their row's maximum. -/
def vShift : FVec Ideal S1024x1000 .f32 :=
  subf x0 (broadcastTo S1024x1000 (shapeCast S1024x1
    (multiReduction .maximumf [1] S1024 x0 0xFF800000#32 reduces_S1024x1000_S1024 (.inl rfl) rfl)
    shapeCasts_S1024_S1024x1) broadcasts_S1024x1_S1024x1000)

/-- Each row's sum of exponentials, as a column. -/
def vSum : FVec Ideal S1024x1 .f32 :=
  shapeCast S1024x1 (multiReduction .add [1] S1024 (exp (vShift x0)) 0x00000000#32 reduces_S1024x1000_S1024 (.inl rfl) rfl)
    shapeCasts_S1024_S1024x1

/-- The clipped probabilities. -/
def vClip : FVec Ideal S1024x1000 .f32 :=
  minimumf (broadcast S1024x1000 (Scalar.ofBits .f32 0x3F800000#32))
    (maximumf (broadcast S1024x1000 (Scalar.ofBits .f32 0x33D6BF95#32))
      (divf (exp (vShift x0)) (broadcastTo S1024x1000 (vSum x0) broadcasts_S1024x1_S1024x1000)))

/-- The mask: the class's word is the row's target word. -/
def vMask : IVec S1024x1000 1 :=
  cmpi .eq (iota .tc S1024x1000 32 [1] iota_S1024x1000_d1_w32)
    (broadcastTo S1024x1000 (shapeCast S1024x1 x1 shapeCasts_S1024x1_S1024x1) broadcasts_S1024x1_S1024x1000)

/-- The row sums of an array masked to the target class, as a column. -/
def vPick (v : FVec Ideal S1024x1000 .f32) : FVec Ideal S1024x1 .f32 :=
  shapeCast S1024x1 (multiReduction .add [1] S1024
    (select (vMask x1) v (broadcast S1024x1000 (Scalar.ofBits .f32 0x00000000#32)))
    0x00000000#32 reduces_S1024x1000_S1024 (.inl rfl) rfl) shapeCasts_S1024_S1024x1

/-- Each row's sum of clipped probabilities, as a column. -/
def vPSum : FVec Ideal S1024x1 .f32 :=
  shapeCast S1024x1 (multiReduction .add [1] S1024 (vClip x0) 0x00000000#32 reduces_S1024x1000_S1024 (.inl rfl) rfl)
    shapeCasts_S1024_S1024x1

/-- The kernel's stored value in these terms. -/
theorem pay_eq : k0_pay1 (F := Ideal) x0 x1 =
    shapeCast S1x1x2 (concatenate S1x2 1
      [⟨S1x1, shapeCast S1x1 (multiReduction .add [0] S1
          (subf (broadcast S1024x1 (Scalar.ofBits .f32 0x00000000#32)) (subf (vPick x1 (vShift x0)) (log (vSum x0))))
          0x00000000#32 reduces_S1024x1_S1 (.inl rfl) rfl) shapeCasts_S1_S1x1⟩,
       ⟨S1x1, shapeCast S1x1 (multiReduction .add [0] S1
          (mulf (broadcast S1024x1 (Scalar.ofBits .f32 0x41135D8E#32)) (subf (vPSum x0) (vPick x1 (vClip x0))))
          0x00000000#32 reduces_S1024x1_S1 (.inl rfl) rfl) shapeCasts_S1_S1x1⟩]
      concatenates_S1x1_S1x1_S1x2_d1) shapeCasts_S1x2_S1x1x2 := rfl

/-- The shifted logits at (p, j). -/
theorem vShift_apply (p : Fin 1024) (j : Fin 1000) :
    vShift x0 (ix2 p j) = shifted (fun j => x0 (ix2 p j)) j := by
  show x0 (ix2 p j) - _ = x0 (ix2 p j) - rowMax (fun j => x0 (ix2 p j))
  exact congrArg (x0 (ix2 p j) - ·)
    ((colBroadcast_apply _ p j).trans ((colCast_apply _ p 0).trans (rowMax_apply x0 p)))

/-- The sum of exponentials of row p. -/
theorem vSum_apply (p : Fin 1024) (q : Fin 1) :
    vSum x0 (ix2 p q) = sumExp (fun j => x0 (ix2 p j)) := by
  refine (colCast_apply _ p q).trans ((rowSum_apply _ p).trans ?_)
  exact Finset.sum_congr rfl fun j _ => congrArg Ideal.exp (vShift_apply x0 p j)

/-- The clipped probability at (p, j). -/
theorem vClip_apply (p : Fin 1024) (j : Fin 1000) :
    vClip x0 (ix2 p j) = clipped (fun j => x0 (ix2 p j)) j := by
  show min (W 0x3F800000#32) (max (W 0x33D6BF95#32) (Ideal.div (Ideal.exp (vShift x0 (ix2 p j)))
    (broadcastTo S1024x1000 (vSum x0) broadcasts_S1024x1_S1024x1000 (ix2 p j)))) = _
  rw [vShift_apply, colBroadcast_apply, vSum_apply]
  rfl

/-- The mask at (p, j): the word of j compared with row p's target word. -/
theorem vMask_apply (p : Fin 1024) (j : Fin 1000) :
    vMask x1 (ix2 p j) = IntOp.cmpi .eq (BitVec.ofNat 32 j.val) (x1 (ix2 p 0)) := by
  show IntOp.cmpi .eq (iota .tc S1024x1000 32 [1] iota_S1024x1000_d1_w32 (ix2 p j))
    (broadcastTo S1024x1000 (shapeCast S1024x1 x1 shapeCasts_S1024x1_S1024x1) broadcasts_S1024x1_S1024x1000 (ix2 p j)) = _
  rw [iota_apply, colBroadcast_apply, shapeCast_self]

/-- On the label range the masked row sum of an array is its entry at the row's target class. -/
theorem vPick_apply (v : FVec Ideal S1024x1000 .f32) (p : Fin 1024) (q : Fin 1) (ht : (x1 (ix2 p 0)).toNat < 1000) :
    vPick x1 v (ix2 p q) = v (ix2 p (tcol (x1 (ix2 p 0)))) := by
  refine (colCast_apply _ p q).trans ((rowSum_apply _ p).trans ?_)
  refine Eq.trans (Finset.sum_congr rfl fun j _ => ?_) (maskedSum ht fun j => v (ix2 p j))
  show Scalar.select (vMask x1 (ix2 p j)) (v (ix2 p j)) (W 0x00000000#32) = _
  rw [vMask_apply]

/-- The sum of clipped probabilities of row p. -/
theorem vPSum_apply (p : Fin 1024) (q : Fin 1) :
    vPSum x0 (ix2 p q) = pSum (fun j => x0 (ix2 p j)) := by
  refine (colCast_apply _ p q).trans ((rowSum_apply _ p).trans ?_)
  exact Finset.sum_congr rfl fun j _ => vClip_apply x0 p j

/-- Row p's term of entry 0: zero less the target's log-probability. -/
theorem row0 (p : Fin 1024) (ht : (x1 (ix2 p 0)).toNat < 1000) :
    subf (broadcast S1024x1 (Scalar.ofBits (F := Ideal) .f32 0x00000000#32))
        (subf (vPick x1 (vShift x0)) (log (vSum x0))) (ix2 p 0)
      = W 0x00000000#32 - logp (fun j => x0 (ix2 p j)) (tcol (x1 (ix2 p 0))) := by
  show W 0x00000000#32 - (vPick x1 (vShift x0) (ix2 p 0) - Ideal.log (vSum x0 (ix2 p 0))) = _
  rw [vPick_apply x1 _ p 0 ht, vShift_apply, vSum_apply]
  rfl

/-- Row p's term of entry 1: v times the clipped mass off the target. -/
theorem row1 (p : Fin 1024) (ht : (x1 (ix2 p 0)).toNat < 1000) :
    mulf (broadcast S1024x1 (Scalar.ofBits (F := Ideal) .f32 0x41135D8E#32))
        (subf (vPSum x0) (vPick x1 (vClip x0))) (ix2 p 0)
      = W 0x41135D8E#32 * rest (fun j => x0 (ix2 p j)) (tcol (x1 (ix2 p 0))) := by
  show W 0x41135D8E#32 * (vPSum x0 (ix2 p 0) - vPick x1 (vClip x0) (ix2 p 0)) = _
  rw [vPSum_apply, vPick_apply x1 _ p 0 ht, vClip_apply]
  rfl

end Row

theorem pay_apply (x0 : Vec Ideal S1024x1000 .f32) (x1 : Vec Ideal S1024x1 .i32)
    (hT : ∀ p : Fin 1024, (x1 (ix2 p 0)).toNat < 1000) (k : Fin 2) :
    k0_pay1 (F := Ideal) x0 x1 (ix3 0 0 k) =
      if k = 0 then ∑ p : Fin 1024, (W 0x00000000#32 - logp (fun j => x0 (ix2 p j)) (tcol (x1 (ix2 p 0))))
      else ∑ p : Fin 1024, W 0x41135D8E#32 * rest (fun j => x0 (ix2 p j)) (tcol (x1 (ix2 p 0))) := by
  rw [pay_eq]
  refine (outCast_apply _ k).trans ((pair_apply _ _ k).trans ?_)
  by_cases hk : k = 0
  · rw [if_pos hk, if_pos hk]
    refine (unitCast_apply _ 0 0).trans ((colSum_apply _ 0).trans ?_)
    exact Finset.sum_congr rfl fun p _ => row0 x0 x1 p (hT p)
  · rw [if_neg hk, if_neg hk]
    refine (unitCast_apply _ 0 0).trans ((colSum_apply _ 0).trans ?_)
    exact Finset.sum_congr rfl fun p _ => row1 x0 x1 p (hT p)

end Cert.KernelIdeal.KPay

end
-- ==== Proof.KernelValue.lean ====
/-
  The idealized kernel's run, with its result named: the region writes tile t's two entries to row t of the
  [64, 1, 2] array, the host reshapes it, sums over the tiles from 0, scales each column by 2^-16 and by 1 and adds
  the two: the kernel's arrangement of the loss.

  Tile t (of 64) holds rows 1024·t … 1024·t + 1023 of the logits and of the targets (the targets pass through a
  reshape [65536] → [65536, 1] first, which keeps row-major positions, so entry (r, 0) is target r). Entry 0 of
  what tile t stores is the sum over its rows of 0 - (log-probability of the row's target), entry 1 the sum of
  v · (the row's clipped off-target mass). The stored blocks tile the [64, 1, 2] array (tile t is row t), so the array
  ends as the function of tile sums; the sixteen operations after the region read it at the one index of the scalar.
-/
import proofs.«427901_j11751030522421_2_alg».proof.Proof.Gen.KernelIdeal.Frame
import proofs.«427901_j11751030522421_2_alg».proof.Proof.Spec
import proofs.«427901_j11751030522421_2_alg».proof.Proof.KernelPay
import Idealize.ShloMosaic.Lib.Pipeline.Value
import Idealize.ShloMosaic.Lib.IdealHost
import Idealize.ShloMosaic.PureOps.Ideal.Laws

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem Cert.SymCE
open Idealize.ShloMosaic.Pipeline (Dat)

/-! ## The tile sums -/

/-- Entry k of tile t's pair: over the tile's 1024 rows, the sum of 0 - a (k = 0) or of v · b (k = 1). -/
def tileEntry (a b : Fin 65536 → EReal) (t : Fin 64) (k : Fin 2) : EReal :=
  if k = 0 then ∑ p : Fin 1024, (W 0x00000000#32 - a (glob t p))
  else ∑ p : Fin 1024, W 0x41135D8E#32 * b (glob t p)

/-- The [64, 1, 2] array of tile sums: row t is tile t's pair. -/
def tileSums (a b : Fin 65536 → EReal) : S64x1x2.Idx → EReal := fun i => tileEntry a b (i 0) (i 2)

theorem tileEntry_congr (a b : Fin 65536 → EReal) {t t' : Fin 64} {k k' : Fin 2} (ht : t.val = t'.val) (hk : k.val = k'.val) :
    tileEntry a b t k = tileEntry a b t' k' := by
  obtain rfl := Fin.ext ht; obtain rfl := Fin.ext hk; rfl

theorem hz2 : (![0, 0] : Fin 2 → Nat) = fun _ => 0 := funext fun a => by fin_cases a <;> rfl
theorem hz3 : (![0, 0, 0] : Fin 3 → Nat) = fun _ => 0 := funext fun a => by fin_cases a <;> rfl

/-! ## The index maps over the grid -/

/-- Point t's blocks: block (t, 0) of the logits and of the reshaped targets, block (t, 0, 0) of the output. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

section Body
variable (m : (ℓ : Loc nD τ sig) → Buf (Elt Ideal) ℓ)

/-! ## The input blocks as rows of the arguments -/

/-- Block t of the logits at (p, j) is the argument at row 1024·t + p, class j. -/
theorem blk0_apply (c : Dev nD) (t : Fin cfg0.N) (p : Fin 1024) (j : Fin 1000) :
    (iblk m c 0 t : Vec Ideal S1024x1000 .f32) (ix2 p j)
      = (m ((c.tc : Thread nD τ).loc main_arg0) : S65536x1000.Idx → EReal) (ix2 (glob (t.cast N_0) p) j) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 1024 + 1 * p.val = 1024 * t.val + p.val; rw [e0]; omega
  | ⟨1, _⟩ => show win0_0.index t (1 : Fin 2) * 1000 + 1 * j.val = j.val; rw [e1]; omega

/-- The targets as the region finds them: the argument reshaped [65536] → [65536, 1]. -/
theorem V_main_v0 (c : Dev nD) :
    (V m c main_v0 : S65536x1.Idx → BitVec 32)
      = shapeCast S65536x1 (m ((c.tc : Thread nD τ).loc main_arg1) : S65536.Idx → BitVec 32) shapeCasts_S65536_S65536x1 := by
  show StableHlo.after hostOps0 (fun b => m (c, b)) (Proc.devRef .tc main_v0) = _
  after_results
  rfl

/-- Block t of the reshaped targets at (p, 0) is the target of row 1024·t + p. -/
theorem blk1_apply (c : Dev nD) (t : Fin cfg0.N) (p : Fin 1024) :
    (iblk m c 1 t : Vec Ideal S1024x1 .i32) (ix2 p 0)
      = (m ((c.tc : Thread nD τ).loc main_arg1) : S65536.Idx → BitVec 32) (ix1 (glob (t.cast N_0) p)) := by
  obtain ⟨-, -, e0, e1, -⟩ := idx_facts t
  unfold iblk
  rw [View.read_apply]
  show V m c main_v0 _ = _
  rw [V_main_v0]
  refine shapeCast_apply _ _ _ (ix1 (glob (t.cast N_0) p)) ?_
  rw [Shape.rowMajor_val_one, Shape.rowMajor_val_two]
  show 1024 * t.val + p.val = (win0_1.index t (0 : Fin 2) * 1024 + 1 * p.val) * 1 + (win0_1.index t (1 : Fin 2) * 1 + 1 * 0)
  rw [e0, e1]; omega

/-! ## What a point stores, over the rows it holds -/

/-- The body's pair for blocks that are rows 1024·t … of the arrays X, T: the tile sums' row t. -/
theorem pay_at (x0 : Vec Ideal S1024x1000 .f32) (x1 : Vec Ideal S1024x1 .i32)
    (X : S65536x1000.Idx → EReal) (T : S65536.Idx → BitVec 32) (t : Fin 64)
    (hX : ∀ (p : Fin 1024) (j : Fin 1000), x0 (ix2 p j) = X (ix2 (glob t p) j))
    (hTg : ∀ p : Fin 1024, x1 (ix2 p 0) = T (ix1 (glob t p)))
    (hT : ∀ r : Fin 65536, (T (ix1 r)).toNat < 1000) (y : S1x1x2.Idx) :
    k0_pay1 (F := Ideal) x0 x1 y = tileEntry (ceAt X T) (rceAt X T) t (y 2) := by
  obtain ⟨k0, k1, k, rfl⟩ : ∃ (k0 : Fin 1) (k1 : Fin 1) (k : Fin 2), y = ix3 k0 k1 k := ⟨y 0, y 1, y 2, eq_ix3 y⟩
  obtain rfl : k0 = 0 := Subsingleton.elim _ _
  obtain rfl : k1 = 0 := Subsingleton.elim _ _
  rw [KPay.pay_apply x0 x1 (fun p => by rw [hTg]; exact hT _) k]
  show _ = tileEntry _ _ t k
  unfold tileEntry ceAt rceAt row
  simp only [hX, hTg]

/-! ## The operations after the region, read at the scalar's index -/

theorem tileSums_col0 (a b : Fin 65536 → EReal) (t : Fin 64) :
    tileSums a b (ix3 t (0 : Fin 1) (0 : Fin 2)) = ∑ p : Fin 1024, (W 0x00000000#32 - a (glob t p)) := by
  show tileEntry a b t 0 = _
  unfold tileEntry
  rw [if_pos rfl]

theorem tileSums_col1 (a b : Fin 65536 → EReal) (t : Fin 64) :
    tileSums a b (ix3 t (0 : Fin 1) (1 : Fin 2)) = ∑ p : Fin 1024, W 0x41135D8E#32 * b (glob t p) := by
  show tileEntry a b t 1 = _
  unfold tileEntry
  rw [if_neg (by decide)]

/-- Column k of a [64, 1, 2] array through the reshape to [64, 2], the sum over the 64 rows from the zero word, the
    slice [k : k + 1] and the reshape to a scalar: the zero word plus the sum over the rows of the entries (t, 0, k).
    The reshapes keep row-major positions: (t, k) of [64, 2] is (t, 0, k) of [64, 1, 2], both at position 2·t + k. -/
theorem col_total (A : FVec Ideal S64x1x2 .f32) (o : Nat) (k : Fin 2) (hk : k.val = o)
    (h1 : S64x1x2.ShapeCasts S64x2) (h2 : S64x2.ReducesTo [0] S2) (h3 : 0 < S_.numel)
    (h4 : S2.Slices ![o] S1) (h5 : S1.ShapeCasts S_) (j : S_.Idx) :
    shapeCast S_ (extractStridedSlice S1 ![o]
        (Host.reduceAdd (shapeCast S64x2 A h1) (constant (F := Ideal) S_ .f32 0x00000000#32) h2 h3) h4) h5 j
      = W 0x00000000#32 + ∑ t : Fin 64, A (ix3 t (0 : Fin 1) k) := by
  have hR : S64x2.Reduces [0] S2 := by decide
  refine (shapeCast_apply _ h5 j (ix1 (0 : Fin 1)) ?_).trans ?_
  · rw [Shape.rowMajor_val_one]
    have hn : S_.numel = 1 := by decide
    have hj : (S_.rowMajor j).val < 1 := lt_of_lt_of_eq (S_.rowMajor j).isLt hn
    show 0 = _
    omega
  refine (extractStridedSlice_apply ![o] _ h4 (ix1 (0 : Fin 1)) (ix1 k) (fun a => ?_)).trans ?_
  · match a with
    | ⟨0, _⟩ => show k.val = o + 0; omega
  refine (hostReduceAdd_apply _ _ h2 h3 (ix1 k)).trans ?_
  refine (Ideal.hostReduceAdd_single h2 hR _ _ (ix1 k)).trans ?_
  show W 0x00000000#32 + ∑ t : Fin 64, shapeCast S64x2 A h1 (hR.lift (ix1 k) t) = _
  congr 1
  refine Finset.sum_congr rfl fun t _ => ?_
  refine shapeCast_apply A h1 _ (ix3 t (0 : Fin 1) k) ?_
  rw [Shape.rowMajor_val_three, Shape.rowMajor_val_two]
  show (t.val * 1 + 0) * 2 + k.val = t.val * 2 + k.val
  omega

/-- The sixteen operations on the array of tile sums: the kernel's arrangement of the two means. -/
theorem tail_value (a b : Fin 65536 → EReal) (h1 : S64x1x2.ShapeCasts S64x2) (h2 : S64x2.ReducesTo [0] S2) (h3 : 0 < S_.numel)
    (h40 : S2.Slices ![0] S1) (h41 : S2.Slices ![1] S1) (h5 : S1.ShapeCasts S_) :
    addf (mulf (constant (F := Ideal) S_ .f32 0x3F800000#32)
           (mulf (shapeCast S_ (extractStridedSlice S1 ![0]
               (Host.reduceAdd (shapeCast S64x2 (tileSums a b : FVec Ideal S64x1x2 .f32) h1) (constant (F := Ideal) S_ .f32 0x00000000#32) h2 h3) h40) h5)
             (constant (F := Ideal) S_ .f32 0x37800000#32)))
         (mulf (constant (F := Ideal) S_ .f32 0x3F800000#32)
           (mulf (shapeCast S_ (extractStridedSlice S1 ![1]
               (Host.reduceAdd (shapeCast S64x2 (tileSums a b : FVec Ideal S64x1x2 .f32) h1) (constant (F := Ideal) S_ .f32 0x00000000#32) h2 h3) h41) h5)
             (constant (F := Ideal) S_ .f32 0x37800000#32)))
      = fun _ => kernelVal a b := by
  funext j
  show W 0x3F800000#32 * (shapeCast S_ (extractStridedSlice S1 ![0]
          (Host.reduceAdd (shapeCast S64x2 (tileSums a b : FVec Ideal S64x1x2 .f32) h1) (constant (F := Ideal) S_ .f32 0x00000000#32) h2 h3) h40) h5 j * W 0x37800000#32)
      + W 0x3F800000#32 * (shapeCast S_ (extractStridedSlice S1 ![1]
          (Host.reduceAdd (shapeCast S64x2 (tileSums a b : FVec Ideal S64x1x2 .f32) h1) (constant (F := Ideal) S_ .f32 0x00000000#32) h2 h3) h41) h5 j * W 0x37800000#32)
      = kernelVal a b
  rw [col_total _ 0 0 rfl h1 h2 h3 h40 h5 j, col_total _ 1 1 rfl h1 h2 h3 h41 h5 j]
  simp only [tileSums_col0, tileSums_col1]
  rfl

/-! ## What point t writes back, the cover, the array after the region -/

section Region
variable (hT : ∀ (c : Dev nD) (r : Fin 65536), (m ((c.tc : Thread nD τ).loc main_arg1) (ix1 r)).toNat < 1000)
include hT

/-- What point t writes back is block t of the array of tile sums. -/
theorem flushed_eq (c : Dev nD) (t : Fin cfg0.N) :
    (dats m 0 c).flushed 2 t = ((cfg0.win 2).blk t).view.read (Elt Ideal)
      (tileSums (ceAt (m ((c.tc : Thread nD τ).loc main_arg0)) (m ((c.tc : Thread nD τ).loc main_arg1)))
        (rceAt (m ((c.tc : Thread nD τ).loc main_arg0)) (m ((c.tc : Thread nD τ).loc main_arg1)))) := by
  show (cfg0.win 2).cut (grid0.coords t) ((dats m 0 c).after 2 t) = _
  rw [after0_2]
  unfold out0_2
  rw [View.canon_unit_zero hz3]
  simp only [View.ld_unit_zero (S := S1024x1000) hz2, View.ld_unit_zero (S := S1024x1) hz2]
  obtain ⟨-, -, -, -, e0, e1, e2⟩ := idx_facts t
  funext y
  show k0_pay1 (F := Ideal) (iblk m c 0 t) (iblk m c 1 t) y = tileSums _ _ (((cfg0.win 2).blk t).view.emb y)
  refine (pay_at (iblk m c 0 t) (iblk m c 1 t) (m ((c.tc : Thread nD τ).loc main_arg0)) (m ((c.tc : Thread nD τ).loc main_arg1))
    (t.cast N_0) (blk0_apply m c t) (blk1_apply m c t) (hT c) y).trans ?_
  have h0 : (y 0).val < 1 := (y 0).isLt
  refine tileEntry_congr _ _ ?_ ?_
  · show t.val = win0_2.index t (0 : Fin 3) * 1 + 1 * (y 0).val
    rw [e0]; omega
  · show (y 2).val = win0_2.index t (2 : Fin 3) * 2 + 1 * (y 2).val
    rw [e2]; omega

omit hT in
/-- An index of the [64, 1, 2] array is in point t's block iff each coordinate is in the block's range on its axis. -/
theorem mem_blk (t : Fin cfg0.N) (i : S64x1x2.Idx) :
    i ∈ ((cfg0.win 2).blk t).view.set ↔ ∀ a : Fin 3, win0_2.index t a * S1x1x2.size a ≤ (i a).val ∧ (i a).val < win0_2.index t a * S1x1x2.size a + S1x1x2.size a := by
  show i ∈ ((View.whole main_v1).slice (win0_2.rect t)).set ↔ _
  rw [View.set_slice_whole, Rect.mem_set_unit]
  exact Iff.rfl

omit hT in
/-- Row t of the array is point t's block: the blocks cover the array. -/
theorem cover (i : S64x1x2.Idx) : ∃ t : Fin cfg0.N, (cfg0.win 2).flush t = true ∧ i ∈ ((cfg0.win 2).blk t).view.set := by
  have h0 : (i 0).val < 64 := (i 0).isLt
  have h1 : (i 1).val < 1 := (i 1).isLt
  have h2 : (i 2).val < 2 := (i 2).isLt
  obtain ⟨-, -, -, -, e0, e1, e2⟩ := idx_facts ((⟨(i 0).val, h0⟩ : Fin 64).cast N_0.symm)
  refine ⟨(⟨(i 0).val, h0⟩ : Fin 64).cast N_0.symm, flush0_2 _, ?_⟩
  rw [mem_blk]
  intro a
  match a with
  | ⟨0, _⟩ => show win0_2.index _ (0 : Fin 3) * 1 ≤ (i 0).val ∧ (i 0).val < win0_2.index _ (0 : Fin 3) * 1 + 1; rw [e0]; show (i 0).val * 1 ≤ (i 0).val ∧ (i 0).val < (i 0).val * 1 + 1; omega
  | ⟨1, _⟩ => show win0_2.index _ (1 : Fin 3) * 1 ≤ (i 1).val ∧ (i 1).val < win0_2.index _ (1 : Fin 3) * 1 + 1; rw [e1]; omega
  | ⟨2, _⟩ => show win0_2.index _ (2 : Fin 3) * 2 ≤ (i 2).val ∧ (i 2).val < win0_2.index _ (2 : Fin 3) * 2 + 2; rw [e2]; omega

/-- The output array after the region: the tile sums. -/
theorem final (c : Dev nD) : (dats m 0 c).arrAt 2 cfg0.N
    = tileSums (ceAt (m ((c.tc : Thread nD τ).loc main_arg0)) (m ((c.tc : Thread nD τ).loc main_arg1)))
        (rceAt (m ((c.tc : Thread nD τ).loc main_arg0)) (m ((c.tc : Thread nD τ).loc main_arg1))) :=
  (dats m 0 c).arrAt_eq_of_cover 2 _ (fun t _ => flushed_eq m hT c t) cover

/-- The scalar the operations after the region leave. -/
theorem tail_eq (c : Dev nD) :
    Pipeline.afterTail₀ cfgs (dats m) 0 (V0 m) [hostOps1] c main_v12
      = fun _ => kernelVal (ceAt (m ((c.tc : Thread nD τ).loc main_arg0)) (m ((c.tc : Thread nD τ).loc main_arg1)))
          (rceAt (m ((c.tc : Thread nD τ).loc main_arg0)) (m ((c.tc : Thread nD τ).loc main_arg1))) := by
  unfold Pipeline.afterTail₀
  show StableHlo.after hostOps1 _ (Proc.devRef .tc main_v12) = _
  after_results
  have hA : Pipeline.withArrays (cfgs 0).spec c (V0 m c) (fun w => (dats m 0 c).arrAt w (cfgs 0).N) (Proc.devRef .tc main_v1)
      = tileSums (ceAt (m ((c.tc : Thread nD τ).loc main_arg0)) (m ((c.tc : Thread nD τ).loc main_arg1)))
          (rceAt (m ((c.tc : Thread nD τ).loc main_arg0)) (m ((c.tc : Thread nD τ).loc main_arg1))) :=
    (Pipeline.withArrays_arr spec0 launch0.win.arr_inj c _ _ 2).trans (final m hT c)
  rw [hA]
  exact tail_value _ _ shapeCasts_S64x1x2_S64x2 reducesTo_S64x2_S2_d0 h_S_ slices_S2_S1_0 slices_S2_S1_1 shapeCasts_S1_S_

end Region

end Body

/-! ## The run, read -/

theorem run (m : (ℓ : Loc nD τ sig) → Buf (Elt Ideal) ℓ) (ρ : Dev nD → PrngReg)
    (hT : ∀ (c : Dev nD) (r : Fin 65536), (m ((c.tc : Thread nD τ).loc main_arg1) (ix1 r)).toNat < 1000) :
    θ_run (defs (F := Ideal)) (onTc (τ := τ) (main (F := Ideal))) ⟨m, fun _ => 0, ρ⟩ (fun r => ∀ c : Dev nD,
      r.2.mem ((c.tc : Thread nD τ).loc main_v12)
          = (fun _ => kernelVal (ceAt (m ((c.tc : Thread nD τ).loc main_arg0)) (m ((c.tc : Thread nD τ).loc main_arg1)))
              (rceAt (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main m ρ)
  · exact ((h c).2 main_v12 (Pipeline.mem_restRefs_of main_v12 (by decide) (by decide))).trans (tail_eq m hT c)
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)

end Cert.KernelIdeal.KValue

end
-- ==== Proof.lean ====
/-
  Symmetric cross entropy (a forward cross entropy plus a reverse one against the clamped one-hot target), a Pallas
  kernel over 64 tiles of 1024 rows against its jnp reference, equal on the extended reals.

  Both programs compute, per row, the log-probability of the row's target class and the clipped probability mass
  off that class (Proof/Spec.lean). They differ in three ways, none a difference of value on the stated domain:
  * the kernel picks the target's entry by a masked sum over the class axis (the mask is "class index = target"),
    the reference by a gather; for a target in 0 ≤ t < 1000 both are the entry at t (outside that range the gather
    clamps and the mask is empty, which is why the precondition carries the label range);
  * the kernel sums tile by tile, negating and scaling by v = f32(-log 1e-4) inside the sums, and multiplies the
    totals by 2^-16; the reference sums all 65536 rows, scales by the word of -v, divides by 65536 and negates;
  * so the two results are two arrangements of the same finite sums of real numbers, equal because on finite logits
    every per-row term is real (Proof/Spec.lean, `kernelVal_eq_refVal`).
  The frames of the two kernel programs are the generated ones; the reference's is its run with the result dropped.
  The idealization rewrote nothing, so `preserves` is `True`.
-/
import proofs.«427901_j11751030522421_2_alg».proof.Defs
import proofs.«427901_j11751030522421_2_alg».proof.Proof.Gen.Kernel
import proofs.«427901_j11751030522421_2_alg».proof.Proof.Gen.Kernel.Skeleton
import proofs.«427901_j11751030522421_2_alg».proof.Proof.Gen.Kernel.Launch
import proofs.«427901_j11751030522421_2_alg».proof.Proof.Gen.Kernel.Points
import proofs.«427901_j11751030522421_2_alg».proof.Proof.Gen.Kernel.Frame
import proofs.«427901_j11751030522421_2_alg».proof.Proof.Gen.KernelIdeal
import proofs.«427901_j11751030522421_2_alg».proof.Proof.Gen.KernelIdeal.Skeleton
import proofs.«427901_j11751030522421_2_alg».proof.Proof.Gen.KernelIdeal.Launch
import proofs.«427901_j11751030522421_2_alg».proof.Proof.Gen.KernelIdeal.Points
import proofs.«427901_j11751030522421_2_alg».proof.Proof.Gen.KernelIdeal.Frame
import proofs.«427901_j11751030522421_2_alg».proof.Proof.Gen.ReferenceIdeal
import proofs.«427901_j11751030522421_2_alg».proof.Proof.Gen.Pre_finite_inputs
import proofs.«427901_j11751030522421_2_alg».proof.Proof.RefRun
import proofs.«427901_j11751030522421_2_alg».proof.Proof.RefRead
import proofs.«427901_j11751030522421_2_alg».proof.Proof.Spec
import proofs.«427901_j11751030522421_2_alg».proof.Proof.PreDecode
import proofs.«427901_j11751030522421_2_alg».proof.Proof.RefValue
import proofs.«427901_j11751030522421_2_alg».proof.Proof.KernelValue
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end at the loss of the specification: the kernel's arrangement of it is the reference's because, the
    logits being finite, every per-row term is a real number. -/
theorem algebraic : Cert.algebraic_KernelIdeal_ReferenceIdeal := by
  intro m ρ m' ρ' hpre hagree
  have hdec := fun c => Cert.PreDecode.of_pre _ _ (hpre c)
  refine ⟨fun c _ => Cert.SymCE.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.KValue.run m ρ (fun c r => (hdec c).2 r))
    funext _
    exact Cert.SymCE.kernelVal_eq_refVal _ _ (Cert.SymCE.ceAt_real _ _ (hdec c).1) (Cert.SymCE.rceAt_real _ _ (hdec c).1)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v54_eq, (hagree c).1, (hagree c).2]
    exact Cert.ReferenceIdeal.RValue.result_eq _ _ (hdec c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
